-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x8 : Shape := ⟨2, ![2000000, 8]⟩
abbrev S_ : Shape := ⟨0, ![]⟩

class Facts : Prop where
  bcast_S_S2000000x8 : S_.BroadcastsInDim S2000000x8 (![] : Fin 0 → Fin S2000000x8.rank)
  reducesTo_S2000000x8_S_d0_1 : S2000000x8.ReducesTo [0, 1] S_
  h_S_ : 0 < S_.numel

variable [Facts]

def fn {F : FTy → Type} [FloatOps F] (main_arg0 : FVec F S2000000x8 .f32) (main_arg1 : FVec F S2000000x8 .f32) : IVec S_ 1 :=
  let main_v0 : FVec F S2000000x8 .f32 := Host.absf main_arg0
  let main_cst : FVec F S_ .f32 := constant S_ .f32 0x7F800000#32
  let main_v1 : FVec F S2000000x8 .f32 := broadcastInDim S2000000x8 ![] bcast_S_S2000000x8 main_cst
  let main_v2 : IVec S2000000x8 1 := cmpf .olt main_v0 main_v1
  let main_c : IVec S_ 1 := constantI S_ 1 1#1
  let main_v3 : IVec S_ 1 := (fun x v => Host.reduce IntOp.andi x v reducesTo_S2000000x8_S_d0_1 h_S_) main_v2 main_c
  let main_v4 : FVec F S2000000x8 .f32 := Host.absf main_arg1
  let main_cst_0 : FVec F S_ .f32 := constant S_ .f32 0x7F800000#32
  let main_v5 : FVec F S2000000x8 .f32 := broadcastInDim S2000000x8 ![] bcast_S_S2000000x8 main_cst_0
  let main_v6 : IVec S2000000x8 1 := cmpf .olt main_v4 main_v5
  let main_c_1 : IVec S_ 1 := constantI S_ 1 1#1
  let main_v7 : IVec S_ 1 := (fun x v => Host.reduce IntOp.andi x v reducesTo_S2000000x8_S_d0_1 h_S_) main_v6 main_c_1
  let main_v8 : IVec S_ 1 := andi main_v3 main_v7
  main_v8
-- ==== Kernel.lean ====
abbrev S2000000x8 : Shape := ⟨2, ![2000000, 8]⟩
abbrev S8x2000000 : Shape := ⟨2, ![8, 2000000]⟩
abbrev S1x2000000 : Shape := ⟨2, ![1, 2000000]⟩
abbrev S1x16000 : Shape := ⟨2, ![1, 16000]⟩
abbrev S2000000 : Shape := ⟨1, ![2000000]⟩
abbrev S_ : Shape := ⟨0, ![]⟩

abbrev nBuf : Space → Nat
  | .hbm => 29
  | .vmem => 34
  | .smem => 0
  | _ => 0

abbrev bufTy : (tb : Table) → Fin (tcTables nBuf tb) → BufTy
  | .hbm, ⟨0, _⟩ => ⟨S2000000x8, .f32⟩
  | .hbm, ⟨1, _⟩ => ⟨S2000000x8, .f32⟩
  | .hbm, ⟨2, _⟩ => ⟨S8x2000000, .f32⟩
  | .hbm, ⟨3, _⟩ => ⟨S8x2000000, .f32⟩
  | .hbm, ⟨4, _⟩ => ⟨S1x2000000, .f32⟩
  | .hbm, ⟨5, _⟩ => ⟨S1x2000000, .f32⟩
  | .hbm, ⟨6, _⟩ => ⟨S1x2000000, .f32⟩
  | .hbm, ⟨7, _⟩ => ⟨S1x2000000, .f32⟩
  | .hbm, ⟨8, _⟩ => ⟨S1x2000000, .f32⟩
  | .hbm, ⟨9, _⟩ => ⟨S1x2000000, .f32⟩
  | .hbm, ⟨10, _⟩ => ⟨S1x2000000, .f32⟩
  | .hbm, ⟨11, _⟩ => ⟨S1x2000000, .f32⟩
  | .hbm, ⟨12, _⟩ => ⟨S1x2000000, .f32⟩
  | .hbm, ⟨13, _⟩ => ⟨S1x2000000, .f32⟩
  | .hbm, ⟨14, _⟩ => ⟨S1x2000000, .f32⟩
  | .hbm, ⟨15, _⟩ => ⟨S1x2000000, .f32⟩
  | .hbm, ⟨16, _⟩ => ⟨S1x2000000, .f32⟩
  | .hbm, ⟨17, _⟩ => ⟨S1x2000000, .f32⟩
  | .hbm, ⟨18, _⟩ => ⟨S1x2000000, .f32⟩
  | .hbm, ⟨19, _⟩ => ⟨S1x2000000, .f32⟩
  | .hbm, ⟨20, _⟩ => ⟨S1x2000000, .f32⟩
  | .hbm, ⟨21, _⟩ => ⟨S2000000, .f32⟩
  | .hbm, ⟨22, _⟩ => ⟨S_, .f32⟩
  | .hbm, ⟨23, _⟩ => ⟨S2000000, .f32⟩
  | .hbm, ⟨24, _⟩ => ⟨S2000000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S1x16000, .f32⟩
  | .local _ .vmem, ⟨1, _⟩ => ⟨S1x16000, .f32⟩
  | .local _ .vmem, ⟨2, _⟩ => ⟨S1x16000, .f32⟩
  | .local _ .vmem, ⟨3, _⟩ => ⟨S1x16000, .f32⟩
  | .local _ .vmem, ⟨4, _⟩ => ⟨S1x16000, .f32⟩
  | .local _ .vmem, ⟨5, _⟩ => ⟨S1x16000, .f32⟩
  | .local _ .vmem, ⟨6, _⟩ => ⟨S1x16000, .f32⟩
  | .local _ .vmem, ⟨7, _⟩ => ⟨S1x16000, .f32⟩
  | .local _ .vmem, ⟨8, _⟩ => ⟨S1x16000, .f32⟩
  | .local _ .vmem, ⟨9, _⟩ => ⟨S1x16000, .f32⟩
  | .local _ .vmem, ⟨10, _⟩ => ⟨S1x16000, .f32⟩
  | .local _ .vmem, ⟨11, _⟩ => ⟨S1x16000, .f32⟩
  | .local _ .vmem, ⟨12, _⟩ => ⟨S1x16000, .f32⟩
  | .local _ .vmem, ⟨13, _⟩ => ⟨S1x16000, .f32⟩
  | .local _ .vmem, ⟨14, _⟩ => ⟨S1x16000, .f32⟩
  | .local _ .vmem, ⟨15, _⟩ => ⟨S1x16000, .f32⟩
  | .local _ .vmem, ⟨16, _⟩ => ⟨S1x16000, .f32⟩
  | .local _ .vmem, ⟨17, _⟩ => ⟨S1x16000, .f32⟩
  | .local _ .vmem, ⟨18, _⟩ => ⟨S1x16000, .f32⟩
  | .local _ .vmem, ⟨19, _⟩ => ⟨S1x16000, .f32⟩
  | .local _ .vmem, ⟨20, _⟩ => ⟨S1x16000, .f32⟩
  | .local _ .vmem, ⟨21, _⟩ => ⟨S1x16000, .f32⟩
  | .local _ .vmem, ⟨22, _⟩ => ⟨S1x16000, .f32⟩
  | .local _ .vmem, ⟨23, _⟩ => ⟨S1x16000, .f32⟩
  | .local _ .vmem, ⟨24, _⟩ => ⟨S1x16000, .f32⟩
  | .local _ .vmem, ⟨25, _⟩ => ⟨S1x16000, .f32⟩
  | .local _ .vmem, ⟨26, _⟩ => ⟨S1x16000, .f32⟩
  | .local _ .vmem, ⟨27, _⟩ => ⟨S1x16000, .f32⟩
  | .local _ .vmem, ⟨28, _⟩ => ⟨S1x16000, .f32⟩
  | .local _ .vmem, ⟨29, _⟩ => ⟨S1x16000, .f32⟩
  | .local _ .vmem, ⟨30, _⟩ => ⟨S1x16000, .f32⟩
  | .local _ .vmem, ⟨31, _⟩ => ⟨S1x16000, .f32⟩
  | .local _ .vmem, ⟨32, _⟩ => ⟨S1x16000, .f32⟩
  | .local _ .vmem, ⟨33, _⟩ => ⟨S1x16000, .f32⟩
  | _, _ => ⟨S2000000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_cst : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16000 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16000 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x16000 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x16000 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x16000 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x16000 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x16000 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  transposes_S2000000x8_S8x2000000_1_0 : S2000000x8.Transposes [1, 0] S8x2000000
  slices_S8x2000000_S1x2000000_0_0 : S8x2000000.Slices ![0, 0] S1x2000000
  slices_S8x2000000_S1x2000000_1_0 : S8x2000000.Slices ![1, 0] S1x2000000
  slices_S8x2000000_S1x2000000_2_0 : S8x2000000.Slices ![2, 0] S1x2000000
  slices_S8x2000000_S1x2000000_3_0 : S8x2000000.Slices ![3, 0] S1x2000000
  slices_S8x2000000_S1x2000000_4_0 : S8x2000000.Slices ![4, 0] S1x2000000
  slices_S8x2000000_S1x2000000_5_0 : S8x2000000.Slices ![5, 0] S1x2000000
  slices_S8x2000000_S1x2000000_6_0 : S8x2000000.Slices ![6, 0] S1x2000000
  slices_S8x2000000_S1x2000000_7_0 : S8x2000000.Slices ![7, 0] S1x2000000
  inb_S1x16000_S1x16000_0_0 : ∀ a, (![0, 0] : Fin 2 → Nat) a + S1x16000.size a ≤ S1x16000.size a
  h_S1x16000 : 0 < S1x16000.numel
  shapeCasts_S1x16000_S1x16000 : S1x16000.ShapeCasts S1x16000
  shapeCasts_S1x2000000_S2000000 : S1x2000000.ShapeCasts S2000000
  bcast_S_S2000000 : S_.BroadcastsInDim S2000000 (![] : Fin 0 → Fin S2000000.rank)
  reducesTo_S2000000_S_d0 : S2000000.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16000.size a ≤ S1x2000000.size a
  hwx0_0 : ∀ i : grid0.Coords, EltTy.bits .f32 = 32 ∨ (Rect.block (s := S1x2000000) S1x16000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16000.size a ≤ S1x2000000.size a
  hwx0_1 : ∀ i : grid0.Coords, EltTy.bits .f32 = 32 ∨ (Rect.block (s := S1x2000000) S1x16000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16000.size a ≤ S1x2000000.size a
  hwx0_2 : ∀ i : grid0.Coords, EltTy.bits .f32 = 32 ∨ (Rect.block (s := S1x2000000) S1x16000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16000.size a ≤ S1x2000000.size a
  hwx0_3 : ∀ i : grid0.Coords, EltTy.bits .f32 = 32 ∨ (Rect.block (s := S1x2000000) S1x16000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16000.size a ≤ S1x2000000.size a
  hwx0_4 : ∀ i : grid0.Coords, EltTy.bits .f32 = 32 ∨ (Rect.block (s := S1x2000000) S1x16000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16000.size a ≤ S1x2000000.size a
  hwx0_5 : ∀ i : grid0.Coords, EltTy.bits .f32 = 32 ∨ (Rect.block (s := S1x2000000) S1x16000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16000.size a ≤ S1x2000000.size a
  hwx0_6 : ∀ i : grid0.Coords, EltTy.bits .f32 = 32 ∨ (Rect.block (s := S1x2000000) S1x16000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16000.size a ≤ S1x2000000.size a
  hwx0_7 : ∀ i : grid0.Coords, EltTy.bits .f32 = 32 ∨ (Rect.block (s := S1x2000000) S1x16000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16000.size a ≤ S1x2000000.size a
  hwx0_8 : ∀ i : grid0.Coords, EltTy.bits .f32 = 32 ∨ (Rect.block (s := S1x2000000) S1x16000.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16000.size a ≤ S1x2000000.size a
  hwx0_9 : ∀ i : grid0.Coords, EltTy.bits .f32 = 32 ∨ (Rect.block (s := S1x2000000) S1x16000.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x16000.size a ≤ S1x2000000.size a
  hwx0_10 : ∀ i : grid0.Coords, EltTy.bits .f32 = 32 ∨ (Rect.block (s := S1x2000000) S1x16000.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x16000.size a ≤ S1x2000000.size a
  hwx0_11 : ∀ i : grid0.Coords, EltTy.bits .f32 = 32 ∨ (Rect.block (s := S1x2000000) S1x16000.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x16000.size a ≤ S1x2000000.size a
  hwx0_12 : ∀ i : grid0.Coords, EltTy.bits .f32 = 32 ∨ (Rect.block (s := S1x2000000) S1x16000.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x16000.size a ≤ S1x2000000.size a
  hwx0_13 : ∀ i : grid0.Coords, EltTy.bits .f32 = 32 ∨ (Rect.block (s := S1x2000000) S1x16000.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x16000.size a ≤ S1x2000000.size a
  hwx0_14 : ∀ i : grid0.Coords, EltTy.bits .f32 = 32 ∨ (Rect.block (s := S1x2000000) S1x16000.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x16000.size a ≤ S1x2000000.size a
  hwx0_15 : ∀ i : grid0.Coords, EltTy.bits .f32 = 32 ∨ (Rect.block (s := S1x2000000) S1x16000.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x16000.size a ≤ S1x2000000.size a
  hwx0_16 : ∀ i : grid0.Coords, EltTy.bits .f32 = 32 ∨ (Rect.block (s := S1x2000000) S1x16000.size (cc0_transform_16 i) (hinb0_16 i)).WholeWords (EltTy.packing .f32)

variable [Facts₀]

abbrev win0_0 : Pipeline.Window sig grid0 :=
  Pipeline.Window.ofSpec (Memref.whole main_v2) S1x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x16000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x16000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x16000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x16000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x16000.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x16000.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x16000.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x16000.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x16000.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x16000.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x16000.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1x16000.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v16) S1x16000.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v17) S1x16000.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v18) S1x16000.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S2000000x8 : Shape := ⟨2, ![2000000, 8]⟩
abbrev S4 : Shape := ⟨1, ![4]⟩
abbrev S24x4 : Shape := ⟨2, ![24, 4]⟩
abbrev S2000000x4x2 : Shape := ⟨3, ![2000000, 4, 2]⟩
abbrev S2000000x1x4x2 : Shape := ⟨4, ![2000000, 1, 4, 2]⟩
abbrev S2000000x4x1x2 : Shape := ⟨4, ![2000000, 4, 1, 2]⟩
abbrev S2000000x4x4x2 : Shape := ⟨4, ![2000000, 4, 4, 2]⟩
abbrev S_ : Shape := ⟨0, ![]⟩
abbrev S2000000x4x4 : Shape := ⟨3, ![2000000, 4, 4]⟩
abbrev S24x4x1 : Shape := ⟨3, ![24, 4, 1]⟩
abbrev S24x4x2 : Shape := ⟨3, ![24, 4, 2]⟩
abbrev S2000000x24x4 : Shape := ⟨3, ![2000000, 24, 4]⟩
abbrev S2000000x24 : Shape := ⟨2, ![2000000, 24]⟩
abbrev S2000000 : Shape := ⟨1, ![2000000]⟩

abbrev nBuf : Space → Nat
  | .hbm => 54
  | .vmem => 0
  | .smem => 0
  | _ => 0

abbrev bufTy : (tb : Table) → Fin (tcTables nBuf tb) → BufTy
  | .hbm, ⟨0, _⟩ => ⟨S2000000x8, .f32⟩
  | .hbm, ⟨1, _⟩ => ⟨S2000000x8, .f32⟩
  | .hbm, ⟨2, _⟩ => ⟨S4, .i32⟩
  | .hbm, ⟨3, _⟩ => ⟨S24x4, .i32⟩
  | .hbm, ⟨4, _⟩ => ⟨S24x4, .i1⟩
  | .hbm, ⟨5, _⟩ => ⟨S24x4, .i32⟩
  | .hbm, ⟨6, _⟩ => ⟨S24x4, .i1⟩
  | .hbm, ⟨7, _⟩ => ⟨S2000000x4x2, .f32⟩
  | .hbm, ⟨8, _⟩ => ⟨S2000000x4x2, .f32⟩
  | .hbm, ⟨9, _⟩ => ⟨S2000000x1x4x2, .f32⟩
  | .hbm, ⟨10, _⟩ => ⟨S2000000x4x1x2, .f32⟩
  | .hbm, ⟨11, _⟩ => ⟨S2000000x4x4x2, .f32⟩
  | .hbm, ⟨12, _⟩ => ⟨S2000000x4x4x2, .f32⟩
  | .hbm, ⟨13, _⟩ => ⟨S2000000x4x4x2, .f32⟩
  | .hbm, ⟨14, _⟩ => ⟨S2000000x4x4x2, .f32⟩
  | .hbm, ⟨15, _⟩ => ⟨S_, .f32⟩
  | .hbm, ⟨16, _⟩ => ⟨S2000000x4x4x2, .f32⟩
  | .hbm, ⟨17, _⟩ => ⟨S2000000x4x4x2, .i1⟩
  | .hbm, ⟨18, _⟩ => ⟨S_, .f32⟩
  | .hbm, ⟨19, _⟩ => ⟨S2000000x4x4x2, .f32⟩
  | .hbm, ⟨20, _⟩ => ⟨S2000000x4x4x2, .f32⟩
  | .hbm, ⟨21, _⟩ => ⟨S2000000x4x4x2, .f32⟩
  | .hbm, ⟨22, _⟩ => ⟨S_, .f32⟩
  | .hbm, ⟨23, _⟩ => ⟨S2000000x4x4x2, .f32⟩
  | .hbm, ⟨24, _⟩ => ⟨S2000000x4x4x2, .f32⟩
  | .hbm, ⟨25, _⟩ => ⟨S_, .f32⟩
  | .hbm, ⟨26, _⟩ => ⟨S2000000x4x4x2, .f32⟩
  | .hbm, ⟨27, _⟩ => ⟨S2000000x4x4x2, .f32⟩
  | .hbm, ⟨28, _⟩ => ⟨S2000000x4x4x2, .f32⟩
  | .hbm, ⟨29, _⟩ => ⟨S_, .f32⟩
  | .hbm, ⟨30, _⟩ => ⟨S2000000x4x4, .f32⟩
  | .hbm, ⟨31, _⟩ => ⟨S_, .i32⟩
  | .hbm, ⟨32, _⟩ => ⟨S24x4, .i32⟩
  | .hbm, ⟨33, _⟩ => ⟨S24x4, .i32⟩
  | .hbm, ⟨34, _⟩ => ⟨S24x4, .i32⟩
  | .hbm, ⟨35, _⟩ => ⟨S_, .i32⟩
  | .hbm, ⟨36, _⟩ => ⟨S24x4, .i32⟩
  | .hbm, ⟨37, _⟩ => ⟨S24x4, .i32⟩
  | .hbm, ⟨38, _⟩ => ⟨S24x4, .i32⟩
  | .hbm, ⟨39, _⟩ => ⟨S24x4x1, .i32⟩
  | .hbm, ⟨40, _⟩ => ⟨S24x4x1, .i32⟩
  | .hbm, ⟨41, _⟩ => ⟨S24x4x2, .i32⟩
  | .hbm, ⟨42, _⟩ => ⟨S2000000x24x4, .f32⟩
  | .hbm, ⟨43, _⟩ => ⟨S_, .f32⟩
  | .hbm, ⟨44, _⟩ => ⟨S2000000x24, .f32⟩
  | .hbm, ⟨45, _⟩ => ⟨S_, .f32⟩
  | .hbm, ⟨46, _⟩ => ⟨S2000000, .f32⟩
  | .hbm, ⟨47, _⟩ => ⟨S_, .f32⟩
  | .hbm, ⟨48, _⟩ => ⟨S2000000, .f32⟩
  | .hbm, ⟨49, _⟩ => ⟨S2000000, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S2000000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_c_7 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_8 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_9 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_cst_13 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  bcast_S4_S24x4_1 : S4.BroadcastsInDim S24x4 (![1] : Fin 1 → Fin S24x4.rank)
  shapeCasts_S2000000x8_S2000000x4x2 : S2000000x8.ShapeCasts S2000000x4x2
  bcast_S2000000x4x2_S2000000x1x4x2_0_2_3 : S2000000x4x2.BroadcastsInDim S2000000x1x4x2 (![0, 2, 3] : Fin 3 → Fin S2000000x1x4x2.rank)
  bcast_S2000000x4x2_S2000000x4x1x2_0_1_3 : S2000000x4x2.BroadcastsInDim S2000000x4x1x2 (![0, 1, 3] : Fin 3 → Fin S2000000x4x1x2.rank)
  bcast_S2000000x1x4x2_S2000000x4x4x2_0_1_2_3 : S2000000x1x4x2.BroadcastsInDim S2000000x4x4x2 (![0, 1, 2, 3] : Fin 4 → Fin S2000000x4x4x2.rank)
  bcast_S2000000x4x1x2_S2000000x4x4x2_0_1_2_3 : S2000000x4x1x2.BroadcastsInDim S2000000x4x4x2 (![0, 1, 2, 3] : Fin 4 → Fin S2000000x4x4x2.rank)
  bcast_S_S2000000x4x4x2 : S_.BroadcastsInDim S2000000x4x4x2 (![] : Fin 0 → Fin S2000000x4x4x2.rank)
  reducesTo_S2000000x4x4x2_S2000000x4x4_d3 : S2000000x4x4x2.ReducesTo [3] S2000000x4x4
  h_S_ : 0 < S_.numel
  bcast_S_S24x4 : S_.BroadcastsInDim S24x4 (![] : Fin 0 → Fin S24x4.rank)
  bcast_S24x4_S24x4x1_0_1 : S24x4.BroadcastsInDim S24x4x1 (![0, 1] : Fin 2 → Fin S24x4x1.rank)
  concatenates_S24x4x1_S24x4x1_S24x4x2_d2 : Shape.Concatenates [S24x4x1, S24x4x1] S24x4x2 2
  reducesTo_S2000000x24x4_S2000000x24_d2 : S2000000x24x4.ReducesTo [2] S2000000x24
  reducesTo_S2000000x24_S2000000_d1 : S2000000x24.ReducesTo [1] S2000000
  bcast_S_S2000000 : S_.BroadcastsInDim S2000000 (![] : Fin 0 → Fin S2000000.rank)
  reducesTo_S2000000_S_d0 : S2000000.ReducesTo [0] S_
  gather_S2000000x4x4_S24x4x2_S2000000x24x4_0_12_n_n_12_2_200000011_wf : GatherDims.WF S2000000x4x4 S24x4x2 S2000000x24x4 [0] [1, 2] [] [1, 2] [] 2 ![2000000, 1, 1]

variable [Facts₀]

def gather_S2000000x4x4_S24x4x2_S2000000x24x4_0_12_n_n_12_2_200000011 : GatherDims S2000000x4x4 S24x4x2 S2000000x24x4 where
  offsetDims := [0]
  collapsedSliceDims := [1, 2]
  operandBatchingDims := []
  startIndicesBatchingDims := []
  startIndexMap := [1, 2]
  indexVectorDim := 2
  sliceSizes := ![2000000, 1, 1]
  wf := gather_S2000000x4x4_S24x4x2_S2000000x24x4_0_12_n_n_12_2_200000011_wf

class Facts : Prop extends Facts₀ where

variable [Facts]
-- ==== Proof.MatchingSpec.lean ====
/-
  The quadrilateral matching loss, on the extended reals.

  A sample is two quadrilaterals, a predicted one `p` and a target one `t`, each four corners of two coordinates,
  stored flat: corner `j`'s coordinate `d` is entry `2 j + d` of eight. The distance between two coordinates is
  `|a - b|`, and the wing loss of a distance `x` is `10 · log (1 + x / 2)` below ten and `x - C` from ten on
  (`C` the constant that joins the two pieces). The cost of giving predicted corner `j` to target corner `i` is the
  sum of the wing losses of their two coordinate distances; an assignment is one of the 24 permutations of the four
  corners, its total the sum over the target corners `i` of the cost of `i` against its assigned predicted corner; the
  loss of the sample is the least total over the 24 assignments.

  Two spellings of that least total are stated here (they are proved equal in MatchingLaws): the running minimum, taken assignment by
  assignment in the table's order over totals added corner by corner, and the fold of `min` from `+∞` over the
  assignments of totals summed from zero over the corners of costs summed from zero over the coordinates.

  The batch's loss is the mean of the samples' losses, each first scaled by the unit weight: their sum from zero
  divided by the number of samples.
-/
import Idealize.ShloMosaic.PureOps
import Idealize.ShloMosaic.PureOps.Ideal
import Idealize.ShloMosaic.PureOps.Ideal.Laws
import Idealize.ShloMosaic.Lib.ValueIdx

noncomputable section

namespace Cert.Matching

open Idealize.ShloMosaic

/-- The knee of the wing loss, and its slope factor: the f32 ten. -/
abbrev ten : EReal := Ideal.ofBits .f32 0x41200000#32
/-- The curvature divisor of the wing loss: the f32 two. -/
abbrev two : EReal := Ideal.ofBits .f32 0x40000000#32
/-- The constant subtracted on the linear piece (the f32 nearest `10 · (1 - log 6)`, a negative number). -/
abbrev knee : EReal := Ideal.ofBits .f32 0xC0FD5CF0#32

/-- The wing loss of a distance: logarithmic below ten, linear from ten on. -/
def wing (x : EReal) : EReal :=
  Scalar.select (Ideal.cmp .olt x ten) (ten * Ideal.log (1 + Ideal.div x two)) (x - knee)

/-- The distance between two coordinates, `|a - b|` as the larger of the difference and its negative. -/
def dist (a b : EReal) : EReal := max (a - b) (-(a - b))

/-- Where corner `j`'s coordinate `d` sits among a sample's eight entries. -/
def entry (j : Fin 4) (d : Fin 2) : Fin 8 := ⟨2 * j.val + d.val, by omega⟩

/-- The cost of giving predicted corner `j` to target corner `i`. -/
def cost (p t : Fin 8 → EReal) (i j : Fin 4) : EReal :=
  wing (dist (p (entry j 0)) (t (entry i 0))) + wing (dist (p (entry j 1)) (t (entry i 1)))

/-- The 24 assignments, in lexicographic order: assignment `q` gives target corner `i` the predicted corner
    `assign q i`. -/
def assign : Fin 24 → Fin 4 → Fin 4 :=
  ![![0, 1, 2, 3],
    ![0, 1, 3, 2],
    ![0, 2, 1, 3],
    ![0, 2, 3, 1],
    ![0, 3, 1, 2],
    ![0, 3, 2, 1],
    ![1, 0, 2, 3],
    ![1, 0, 3, 2],
    ![1, 2, 0, 3],
    ![1, 2, 3, 0],
    ![1, 3, 0, 2],
    ![1, 3, 2, 0],
    ![2, 0, 1, 3],
    ![2, 0, 3, 1],
    ![2, 1, 0, 3],
    ![2, 1, 3, 0],
    ![2, 3, 0, 1],
    ![2, 3, 1, 0],
    ![3, 0, 1, 2],
    ![3, 0, 2, 1],
    ![3, 1, 0, 2],
    ![3, 1, 2, 0],
    ![3, 2, 0, 1],
    ![3, 2, 1, 0]]

/-- The total cost of assignment `q`, added target corner by target corner. -/
def total (p t : Fin 8 → EReal) (q : Fin 24) : EReal :=
  cost p t 0 (assign q 0) + cost p t 1 (assign q 1) + cost p t 2 (assign q 2) + cost p t 3 (assign q 3)

/-- The running minimum of 24 values in order. -/
def runMin (f : Fin 24 → EReal) : EReal :=
  min (min (min (min (min (min (min (min (min (min (min (min (min (min (min (min (min (min (min (min (min (min (min (f 0) (f 1)) (f 2)) (f 3)) (f 4)) (f 5)) (f 6)) (f 7)) (f 8)) (f 9)) (f 10)) (f 11)) (f 12)) (f 13)) (f 14)) (f 15)) (f 16)) (f 17)) (f 18)) (f 19)) (f 20)) (f 21)) (f 22)) (f 23)

/-- The sample's loss: the least total over the 24 assignments, as a running minimum. -/
def loss (p t : Fin 8 → EReal) : EReal := runMin (total p t)

/-- The same least total as a fold of `min` from `+∞` over the assignments, each total summed from zero over the
    target corners, each cost summed from zero over the two coordinates. -/
def lossFold (p t : Fin 8 → EReal) : EReal :=
  (Finset.univ : Finset (Fin 24)).fold min (Ideal.ofBits .f32 0x7F800000#32) fun q =>
    Ideal.ofBits .f32 0x00000000#32 + ∑ i : Fin 4,
      (Ideal.ofBits .f32 0x00000000#32 + ∑ d : Fin 2, wing (dist (p (entry (assign q i) d)) (t (entry i d))))

/-! ## The batch -/

/-- The batch of two million samples, and the scalar's shape. -/
abbrev Batch : Shape := ⟨1, ![2000000]⟩
abbrev Single : Shape := ⟨0, ![]⟩

theorem batch_reduces : Batch.ReducesTo [0] Single := by decide
theorem single_pos : 0 < Single.numel := by decide
theorem single_bcast : Single.BroadcastsInDim Batch (![] : Fin 0 → Fin Batch.rank) := by decide

/-- The mean of the per-sample losses `v`: each times the unit weight, summed from zero, over two million. -/
def mean (v : FVec Ideal Batch .f32) : FVec Ideal Single .f32 :=
  Host.divf
    (Host.reduceAdd (mulf v (broadcastInDim Batch ![] single_bcast (constant (F := Ideal) Single .f32 0x3F800000#32)))
      (constant (F := Ideal) Single .f32 0x00000000#32) batch_reduces single_pos)
    (constant (F := Ideal) Single .f32 0x49F42400#32)

/-- Sample `n` of a [2000000, 8] array: its eight entries. -/
def sample (x : FVec Ideal ⟨2, ![2000000, 8]⟩ .f32) (n : Fin 2000000) : Fin 8 → EReal :=
  fun k => x (ValueIdx.ix2 n k)

/-- THE RESULT both programs are shown to compute: the mean over the batch of each sample's loss. -/
def batchLoss (x y : FVec Ideal ⟨2, ![2000000, 8]⟩ .f32) : FVec Ideal Single .f32 :=
  mean fun i => loss (sample x (i 0)) (sample y (i 0))

/-- The same with each sample's loss in its fold spelling. -/
def batchLossFold (x y : FVec Ideal ⟨2, ![2000000, 8]⟩ .f32) : FVec Ideal Single .f32 :=
  mean fun i => lossFold (sample x (i 0)) (sample y (i 0))

end Cert.Matching

end
-- ==== Proof.MatchingLaws.lean ====
/-
  The two spellings of a sample's least assignment total agree, and so do the two spellings of the batch's loss.

  Three small facts carry it. The words of one, zero and plus infinity denote `1`, `0` and `⊤`. A fold of `min` from
  `⊤` over a finite set is that set's infimum, and over the 24 indices listed one by one the infimum is the meet of
  the 24 values, which association of `min` turns into the running minimum. And a sum from zero over four corners of
  sums from zero over two coordinates is the four costs added in order.
-/
import proofs.«139330_j25202868093039_1_alg».proof.Proof.MatchingSpec
import Mathlib.Data.Finset.Lattice.Fold
import Mathlib.Algebra.BigOperators.Fin
import Mathlib.Data.EReal.Basic

noncomputable section

namespace Cert.Matching

open Idealize.ShloMosaic

/-- The f32 one is the real one. -/
theorem one_word : Ideal.ofBits .f32 0x3F800000#32 = (1 : EReal) := by
  -- sign 0, exponent field 127 (the bias), fraction 0: the normal number 2^23 · 2^(127 - 127 - 23)
  rw [← EReal.coe_one]
  simp [Ideal.ofBits, Ideal.ieee, -EReal.coe_mul]
  norm_num

/-- The f32 word with an all-ones exponent, no fraction and no sign is plus infinity. -/
theorem inf_word : Ideal.ofBits .f32 0x7F800000#32 = (⊤ : EReal) := by
  simp [Ideal.ofBits, Ideal.ieee]

/-- The 24 indices, listed. -/
theorem univ_listed : (Finset.univ : Finset (Fin 24)) =
    {0, 1, 2, 3, 4, 5, 6, 7, 8, 9, 10, 11, 12, 13, 14, 15, 16, 17, 18, 19, 20, 21, 22, 23} := by
  decide

/-- The running minimum of 24 values is their infimum: the infimum over the listed indices is the right-nested meet
    of the values, and the running minimum is the left-nested one; `min` is associative. -/
theorem runMin_eq_inf (f : Fin 24 → EReal) : runMin f = (Finset.univ : Finset (Fin 24)).inf f := by
  rw [univ_listed]
  simp only [Finset.inf_insert, Finset.inf_singleton, runMin, min_assoc]

/-- A fold of `min` from `⊤` is the infimum (the infimum of a finite family is by definition that fold of the meet,
    and on a linear order the meet is `min`). -/
theorem fold_min_top (g : Fin 24 → EReal) :
    (Finset.univ : Finset (Fin 24)).fold min (⊤ : EReal) g = (Finset.univ : Finset (Fin 24)).inf g := rfl

/-- The total of assignment `q` summed from zero, corner by corner and coordinate by coordinate, is its total added in
    order: the zeros drop, the four corners and the two coordinates are written out. -/
theorem folded_total (p t : Fin 8 → EReal) (q : Fin 24) :
    Ideal.ofBits .f32 0x00000000#32 + ∑ i : Fin 4,
      (Ideal.ofBits .f32 0x00000000#32 + ∑ d : Fin 2, wing (dist (p (entry (assign q i) d)) (t (entry i d))))
      = total p t q := by
  simp only [Ideal.ofBits_zero_f32, zero_add, Fin.sum_univ_four, Fin.sum_univ_two, total, cost]

/-- The two spellings of the least total agree. -/
theorem lossFold_eq_loss (p t : Fin 8 → EReal) : lossFold p t = loss p t := by
  unfold lossFold loss
  rw [inf_word, fold_min_top, runMin_eq_inf]
  exact congrArg _ (funext fun q => folded_total p t q)

/-- So the two spellings of the batch's loss agree. -/
theorem batchLossFold_eq (x y : FVec Ideal ⟨2, ![2000000, 8]⟩ .f32) : batchLossFold x y = batchLoss x y := by
  unfold batchLossFold batchLoss
  exact congrArg mean (funext fun i => lossFold_eq_loss _ _)

end Cert.Matching

end
-- ==== Proof.KernelLane.lean ====
/-
  What the kernel's body leaves in its output block, lane by lane.

  The body reads sixteen blocks of 16000 lanes — the eight entries of the predicted quadrilateral and the eight of
  the target, one block per entry, a lane per sample — and every operation in it acts on each lane by itself. So
  the output block at lane `j` is a function of the sixteen values at lane `j`: the wing losses of the coordinate
  distances, added in pairs to the sixteen corner-to-corner costs, the costs added along each of the 24
  assignments, and the running minimum of those totals in the table's order — the sample's loss. The constant
  one inside the logarithm is the f32 one, which is the real one.
-/
import proofs.«139330_j25202868093039_1_alg».proof.Proof.Gen.KernelIdeal.Frame
import proofs.«139330_j25202868093039_1_alg».proof.Proof.MatchingLaws
import Idealize.ShloMosaic.Lib.Pipeline.Value

set_option maxRecDepth 16384

noncomputable section

namespace Cert.KernelIdeal.Lane

open Cert.KernelIdeal Cert.KernelIdeal.Gen Idealize.ShloMosaic

/-- The whole-block rectangle starts at the origin. -/
theorem origin : (![0, 0] : Fin 2 → Nat) = fun _ => 0 := funext fun a => by fin_cases a <;> rfl

set_option maxHeartbeats 1000000 in
/-- The output block after the body: at lane `j` the loss of the sample whose predicted entries are the first eight
    blocks' values at `j` and whose target entries are the last eight blocks' values at `j`. -/
theorem block_eq (x0 x1 x2 x3 x4 x5 x6 x7 x8 x9 x10 x11 x12 x13 x14 x15 : Vec Ideal S1x16000 .f32) :
    out0_16 x0 x1 x2 x3 x4 x5 x6 x7 x8 x9 x10 x11 x12 x13 x14 x15
      = fun j => Cert.Matching.loss ![x0 j, x1 j, x2 j, x3 j, x4 j, x5 j, x6 j, x7 j]
          ![x8 j, x9 j, x10 j, x11 j, x12 j, x13 j, x14 j, x15 j] := by
  unfold out0_16
  rw [View.canon_unit_zero origin]
  simp only [View.ld_unit_zero (S := S1x16000) origin]
  funext j
  -- the body's named pieces, down to the vector operations
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, shapeCast_self]
  -- each vector operation acts lane by lane
  simp only [minimumf, addf, select, cmpf, absf, subf, mulf, log, divf, broadcast]
  -- and at the extended reals each scalar operation is the textbook one
  simp only [Ideal.minimumf_def, Ideal.addf_def, Ideal.subf_def, Ideal.mulf_def, Ideal.divf_def, Ideal.log_def,
    Ideal.cmpf_def, Ideal.absf_def, Ideal.ofBits_def, Cert.Matching.one_word]
  rfl

end Cert.KernelIdeal.Lane

end
-- ==== Proof.KernelArrays.lean ====
/-
  The sixteen arrays the kernel's region reads, and their blocks.

  Before the region the program transposes each [2000000, 8] argument and cuts the transpose into its eight rows:
  sixteen [1, 2000000] arrays, entry `k` of every sample laid out along the lanes. Row `k` of the transpose at
  (0, n) is the argument at (n, k). The region walks these arrays in 125 blocks of 16000 lanes, every window at
  block (0, t) at point `t`, so lane `y` of a window's block at point `t` belongs to sample `16000 t + y`.
-/
import proofs.«139330_j25202868093039_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

/-- Column `k` of a [2000000, 8] array, cut out of its transpose as a [1, 2000000] row: at (0, n) it is entry (n, k). -/
theorem column_apply (x : FVec F S2000000x8 .f32) (k : Fin 8) (off : Fin 2 → Nat) (h0 : off 0 = k.val) (h1 : off 1 = 0)
    (hs : S8x2000000.Slices off S1x2000000) (ht : S2000000x8.Transposes [1, 0] S8x2000000) (z : Fin 1) (n : Fin 2000000) :
    extractStridedSlice S1x2000000 off (transpose S8x2000000 [1, 0] x ht) hs (ix2 z n) = x (ix2 n k) := by
  refine (extractStridedSlice_apply off _ hs (ix2 z n) (ix2 k n) fun a => ?_).trans (transpose_ix2_apply x ht k n)
  match a with
  | ⟨0, _⟩ => show k.val = off 0 + z.val; have := z.isLt; omega
  | ⟨1, _⟩ => show n.val = off 1 + n.val; omega

/-! ## The arrays as the region finds them: each a row of an argument's transpose -/

theorem V_w0 (c : Dev nD) : (V m c main_v2 : S1x2000000.Idx → Elt F .f32)
    = extractStridedSlice S1x2000000 ![0, 0] (transpose S8x2000000 [1, 0] (m ((c : Thread nD τ).loc main_arg0)) transposes_S2000000x8_S8x2000000_1_0) slices_S8x2000000_S1x2000000_0_0 := by
  show StableHlo.after hostOps0 (fun b => m (c, b)) (Proc.devRef .tc main_v2) = _
  after_results
theorem V_w1 (c : Dev nD) : (V m c main_v3 : S1x2000000.Idx → Elt F .f32)
    = extractStridedSlice S1x2000000 ![1, 0] (transpose S8x2000000 [1, 0] (m ((c : Thread nD τ).loc main_arg0)) transposes_S2000000x8_S8x2000000_1_0) slices_S8x2000000_S1x2000000_1_0 := by
  show StableHlo.after hostOps0 (fun b => m (c, b)) (Proc.devRef .tc main_v3) = _
  after_results
theorem V_w2 (c : Dev nD) : (V m c main_v4 : S1x2000000.Idx → Elt F .f32)
    = extractStridedSlice S1x2000000 ![2, 0] (transpose S8x2000000 [1, 0] (m ((c : Thread nD τ).loc main_arg0)) transposes_S2000000x8_S8x2000000_1_0) slices_S8x2000000_S1x2000000_2_0 := by
  show StableHlo.after hostOps0 (fun b => m (c, b)) (Proc.devRef .tc main_v4) = _
  after_results
theorem V_w3 (c : Dev nD) : (V m c main_v5 : S1x2000000.Idx → Elt F .f32)
    = extractStridedSlice S1x2000000 ![3, 0] (transpose S8x2000000 [1, 0] (m ((c : Thread nD τ).loc main_arg0)) transposes_S2000000x8_S8x2000000_1_0) slices_S8x2000000_S1x2000000_3_0 := by
  show StableHlo.after hostOps0 (fun b => m (c, b)) (Proc.devRef .tc main_v5) = _
  after_results
theorem V_w4 (c : Dev nD) : (V m c main_v6 : S1x2000000.Idx → Elt F .f32)
    = extractStridedSlice S1x2000000 ![4, 0] (transpose S8x2000000 [1, 0] (m ((c : Thread nD τ).loc main_arg0)) transposes_S2000000x8_S8x2000000_1_0) slices_S8x2000000_S1x2000000_4_0 := by
  show StableHlo.after hostOps0 (fun b => m (c, b)) (Proc.devRef .tc main_v6) = _
  after_results
theorem V_w5 (c : Dev nD) : (V m c main_v7 : S1x2000000.Idx → Elt F .f32)
    = extractStridedSlice S1x2000000 ![5, 0] (transpose S8x2000000 [1, 0] (m ((c : Thread nD τ).loc main_arg0)) transposes_S2000000x8_S8x2000000_1_0) slices_S8x2000000_S1x2000000_5_0 := by
  show StableHlo.after hostOps0 (fun b => m (c, b)) (Proc.devRef .tc main_v7) = _
  after_results
theorem V_w6 (c : Dev nD) : (V m c main_v8 : S1x2000000.Idx → Elt F .f32)
    = extractStridedSlice S1x2000000 ![6, 0] (transpose S8x2000000 [1, 0] (m ((c : Thread nD τ).loc main_arg0)) transposes_S2000000x8_S8x2000000_1_0) slices_S8x2000000_S1x2000000_6_0 := by
  show StableHlo.after hostOps0 (fun b => m (c, b)) (Proc.devRef .tc main_v8) = _
  after_results
theorem V_w7 (c : Dev nD) : (V m c main_v9 : S1x2000000.Idx → Elt F .f32)
    = extractStridedSlice S1x2000000 ![7, 0] (transpose S8x2000000 [1, 0] (m ((c : Thread nD τ).loc main_arg0)) transposes_S2000000x8_S8x2000000_1_0) slices_S8x2000000_S1x2000000_7_0 := by
  show StableHlo.after hostOps0 (fun b => m (c, b)) (Proc.devRef .tc main_v9) = _
  after_results
theorem V_w8 (c : Dev nD) : (V m c main_v10 : S1x2000000.Idx → Elt F .f32)
    = extractStridedSlice S1x2000000 ![0, 0] (transpose S8x2000000 [1, 0] (m ((c : Thread nD τ).loc main_arg1)) transposes_S2000000x8_S8x2000000_1_0) slices_S8x2000000_S1x2000000_0_0 := by
  show StableHlo.after hostOps0 (fun b => m (c, b)) (Proc.devRef .tc main_v10) = _
  after_results
theorem V_w9 (c : Dev nD) : (V m c main_v11 : S1x2000000.Idx → Elt F .f32)
    = extractStridedSlice S1x2000000 ![1, 0] (transpose S8x2000000 [1, 0] (m ((c : Thread nD τ).loc main_arg1)) transposes_S2000000x8_S8x2000000_1_0) slices_S8x2000000_S1x2000000_1_0 := by
  show StableHlo.after hostOps0 (fun b => m (c, b)) (Proc.devRef .tc main_v11) = _
  after_results
theorem V_w10 (c : Dev nD) : (V m c main_v12 : S1x2000000.Idx → Elt F .f32)
    = extractStridedSlice S1x2000000 ![2, 0] (transpose S8x2000000 [1, 0] (m ((c : Thread nD τ).loc main_arg1)) transposes_S2000000x8_S8x2000000_1_0) slices_S8x2000000_S1x2000000_2_0 := by
  show StableHlo.after hostOps0 (fun b => m (c, b)) (Proc.devRef .tc main_v12) = _
  after_results
theorem V_w11 (c : Dev nD) : (V m c main_v13 : S1x2000000.Idx → Elt F .f32)
    = extractStridedSlice S1x2000000 ![3, 0] (transpose S8x2000000 [1, 0] (m ((c : Thread nD τ).loc main_arg1)) transposes_S2000000x8_S8x2000000_1_0) slices_S8x2000000_S1x2000000_3_0 := by
  show StableHlo.after hostOps0 (fun b => m (c, b)) (Proc.devRef .tc main_v13) = _
  after_results
theorem V_w12 (c : Dev nD) : (V m c main_v14 : S1x2000000.Idx → Elt F .f32)
    = extractStridedSlice S1x2000000 ![4, 0] (transpose S8x2000000 [1, 0] (m ((c : Thread nD τ).loc main_arg1)) transposes_S2000000x8_S8x2000000_1_0) slices_S8x2000000_S1x2000000_4_0 := by
  show StableHlo.after hostOps0 (fun b => m (c, b)) (Proc.devRef .tc main_v14) = _
  after_results
theorem V_w13 (c : Dev nD) : (V m c main_v15 : S1x2000000.Idx → Elt F .f32)
    = extractStridedSlice S1x2000000 ![5, 0] (transpose S8x2000000 [1, 0] (m ((c : Thread nD τ).loc main_arg1)) transposes_S2000000x8_S8x2000000_1_0) slices_S8x2000000_S1x2000000_5_0 := by
  show StableHlo.after hostOps0 (fun b => m (c, b)) (Proc.devRef .tc main_v15) = _
  after_results
theorem V_w14 (c : Dev nD) : (V m c main_v16 : S1x2000000.Idx → Elt F .f32)
    = extractStridedSlice S1x2000000 ![6, 0] (transpose S8x2000000 [1, 0] (m ((c : Thread nD τ).loc main_arg1)) transposes_S2000000x8_S8x2000000_1_0) slices_S8x2000000_S1x2000000_6_0 := by
  show StableHlo.after hostOps0 (fun b => m (c, b)) (Proc.devRef .tc main_v16) = _
  after_results
theorem V_w15 (c : Dev nD) : (V m c main_v17 : S1x2000000.Idx → Elt F .f32)
    = extractStridedSlice S1x2000000 ![7, 0] (transpose S8x2000000 [1, 0] (m ((c : Thread nD τ).loc main_arg1)) transposes_S2000000x8_S8x2000000_1_0) slices_S8x2000000_S1x2000000_7_0 := by
  show StableHlo.after hostOps0 (fun b => m (c, b)) (Proc.devRef .tc main_v17) = _
  after_results

/-! ## Every window sits at block (0, t) at point t -/

theorem at_w0 : ∀ t : Fin cfg0.N, win0_0.index t 0 = 0 ∧ win0_0.index t 1 = t.val :=
  (by decide +kernel : ∀ t : Fin grid0.N, win0_0.index t 0 = 0 ∧ win0_0.index t 1 = t.val)
theorem at_w1 : ∀ t : Fin cfg0.N, win0_1.index t 0 = 0 ∧ win0_1.index t 1 = t.val :=
  (by decide +kernel : ∀ t : Fin grid0.N, win0_1.index t 0 = 0 ∧ win0_1.index t 1 = t.val)
theorem at_w2 : ∀ t : Fin cfg0.N, win0_2.index t 0 = 0 ∧ win0_2.index t 1 = t.val :=
  (by decide +kernel : ∀ t : Fin grid0.N, win0_2.index t 0 = 0 ∧ win0_2.index t 1 = t.val)
theorem at_w3 : ∀ t : Fin cfg0.N, win0_3.index t 0 = 0 ∧ win0_3.index t 1 = t.val :=
  (by decide +kernel : ∀ t : Fin grid0.N, win0_3.index t 0 = 0 ∧ win0_3.index t 1 = t.val)
theorem at_w4 : ∀ t : Fin cfg0.N, win0_4.index t 0 = 0 ∧ win0_4.index t 1 = t.val :=
  (by decide +kernel : ∀ t : Fin grid0.N, win0_4.index t 0 = 0 ∧ win0_4.index t 1 = t.val)
theorem at_w5 : ∀ t : Fin cfg0.N, win0_5.index t 0 = 0 ∧ win0_5.index t 1 = t.val :=
  (by decide +kernel : ∀ t : Fin grid0.N, win0_5.index t 0 = 0 ∧ win0_5.index t 1 = t.val)
theorem at_w6 : ∀ t : Fin cfg0.N, win0_6.index t 0 = 0 ∧ win0_6.index t 1 = t.val :=
  (by decide +kernel : ∀ t : Fin grid0.N, win0_6.index t 0 = 0 ∧ win0_6.index t 1 = t.val)
theorem at_w7 : ∀ t : Fin cfg0.N, win0_7.index t 0 = 0 ∧ win0_7.index t 1 = t.val :=
  (by decide +kernel : ∀ t : Fin grid0.N, win0_7.index t 0 = 0 ∧ win0_7.index t 1 = t.val)
theorem at_w8 : ∀ t : Fin cfg0.N, win0_8.index t 0 = 0 ∧ win0_8.index t 1 = t.val :=
  (by decide +kernel : ∀ t : Fin grid0.N, win0_8.index t 0 = 0 ∧ win0_8.index t 1 = t.val)
theorem at_w9 : ∀ t : Fin cfg0.N, win0_9.index t 0 = 0 ∧ win0_9.index t 1 = t.val :=
  (by decide +kernel : ∀ t : Fin grid0.N, win0_9.index t 0 = 0 ∧ win0_9.index t 1 = t.val)
theorem at_w10 : ∀ t : Fin cfg0.N, win0_10.index t 0 = 0 ∧ win0_10.index t 1 = t.val :=
  (by decide +kernel : ∀ t : Fin grid0.N, win0_10.index t 0 = 0 ∧ win0_10.index t 1 = t.val)
theorem at_w11 : ∀ t : Fin cfg0.N, win0_11.index t 0 = 0 ∧ win0_11.index t 1 = t.val :=
  (by decide +kernel : ∀ t : Fin grid0.N, win0_11.index t 0 = 0 ∧ win0_11.index t 1 = t.val)
theorem at_w12 : ∀ t : Fin cfg0.N, win0_12.index t 0 = 0 ∧ win0_12.index t 1 = t.val :=
  (by decide +kernel : ∀ t : Fin grid0.N, win0_12.index t 0 = 0 ∧ win0_12.index t 1 = t.val)
theorem at_w13 : ∀ t : Fin cfg0.N, win0_13.index t 0 = 0 ∧ win0_13.index t 1 = t.val :=
  (by decide +kernel : ∀ t : Fin grid0.N, win0_13.index t 0 = 0 ∧ win0_13.index t 1 = t.val)
theorem at_w14 : ∀ t : Fin cfg0.N, win0_14.index t 0 = 0 ∧ win0_14.index t 1 = t.val :=
  (by decide +kernel : ∀ t : Fin grid0.N, win0_14.index t 0 = 0 ∧ win0_14.index t 1 = t.val)
theorem at_w15 : ∀ t : Fin cfg0.N, win0_15.index t 0 = 0 ∧ win0_15.index t 1 = t.val :=
  (by decide +kernel : ∀ t : Fin grid0.N, win0_15.index t 0 = 0 ∧ win0_15.index t 1 = t.val)
theorem at_w16 : ∀ t : Fin cfg0.N, win0_16.index t 0 = 0 ∧ win0_16.index t 1 = t.val :=
  (by decide +kernel : ∀ t : Fin grid0.N, win0_16.index t 0 = 0 ∧ win0_16.index t 1 = t.val)

/-! ## Lane y of an input block at point t is the argument at sample 16000 t + y -/

theorem blk_w0 (c : Dev nD) (t : Fin cfg0.N) (y : S1x16000.Idx) (n : Fin 2000000) (hn : n.val = 16000 * t.val + (y 1).val) :
    (iblk m c 0 t : Vec F S1x16000 .f32) y = (m ((c : Thread nD τ).loc main_arg0) : S2000000x8.Idx → Elt F .f32) (ix2 n 0) := by
  unfold iblk
  rw [View.read_apply]
  show V m c main_v2 _ = _
  rw [V_w0]
  obtain ⟨e0, e1⟩ := at_w0 t
  have hy : (y 0).val < 1 := (y 0).isLt
  have he : (((cfg0.win 0).blk t).view.emb y) = ix2 (0 : Fin 1) n := by
    funext a; apply Fin.ext
    match a with
    | ⟨0, _⟩ => show win0_0.index t 0 * 1 + 1 * (y 0).val = 0; omega
    | ⟨1, _⟩ => show win0_0.index t 1 * 16000 + 1 * (y 1).val = n.val; omega
  rw [he]
  exact column_apply _ 0 _ rfl rfl _ _ 0 n
theorem blk_w1 (c : Dev nD) (t : Fin cfg0.N) (y : S1x16000.Idx) (n : Fin 2000000) (hn : n.val = 16000 * t.val + (y 1).val) :
    (iblk m c 1 t : Vec F S1x16000 .f32) y = (m ((c : Thread nD τ).loc main_arg0) : S2000000x8.Idx → Elt F .f32) (ix2 n 1) := by
  unfold iblk
  rw [View.read_apply]
  show V m c main_v3 _ = _
  rw [V_w1]
  obtain ⟨e0, e1⟩ := at_w1 t
  have hy : (y 0).val < 1 := (y 0).isLt
  have he : (((cfg0.win 1).blk t).view.emb y) = ix2 (0 : Fin 1) n := by
    funext a; apply Fin.ext
    match a with
    | ⟨0, _⟩ => show win0_1.index t 0 * 1 + 1 * (y 0).val = 0; omega
    | ⟨1, _⟩ => show win0_1.index t 1 * 16000 + 1 * (y 1).val = n.val; omega
  rw [he]
  exact column_apply _ 1 _ rfl rfl _ _ 0 n
theorem blk_w2 (c : Dev nD) (t : Fin cfg0.N) (y : S1x16000.Idx) (n : Fin 2000000) (hn : n.val = 16000 * t.val + (y 1).val) :
    (iblk m c 2 t : Vec F S1x16000 .f32) y = (m ((c : Thread nD τ).loc main_arg0) : S2000000x8.Idx → Elt F .f32) (ix2 n 2) := by
  unfold iblk
  rw [View.read_apply]
  show V m c main_v4 _ = _
  rw [V_w2]
  obtain ⟨e0, e1⟩ := at_w2 t
  have hy : (y 0).val < 1 := (y 0).isLt
  have he : (((cfg0.win 2).blk t).view.emb y) = ix2 (0 : Fin 1) n := by
    funext a; apply Fin.ext
    match a with
    | ⟨0, _⟩ => show win0_2.index t 0 * 1 + 1 * (y 0).val = 0; omega
    | ⟨1, _⟩ => show win0_2.index t 1 * 16000 + 1 * (y 1).val = n.val; omega
  rw [he]
  exact column_apply _ 2 _ rfl rfl _ _ 0 n
theorem blk_w3 (c : Dev nD) (t : Fin cfg0.N) (y : S1x16000.Idx) (n : Fin 2000000) (hn : n.val = 16000 * t.val + (y 1).val) :
    (iblk m c 3 t : Vec F S1x16000 .f32) y = (m ((c : Thread nD τ).loc main_arg0) : S2000000x8.Idx → Elt F .f32) (ix2 n 3) := by
  unfold iblk
  rw [View.read_apply]
  show V m c main_v5 _ = _
  rw [V_w3]
  obtain ⟨e0, e1⟩ := at_w3 t
  have hy : (y 0).val < 1 := (y 0).isLt
  have he : (((cfg0.win 3).blk t).view.emb y) = ix2 (0 : Fin 1) n := by
    funext a; apply Fin.ext
    match a with
    | ⟨0, _⟩ => show win0_3.index t 0 * 1 + 1 * (y 0).val = 0; omega
    | ⟨1, _⟩ => show win0_3.index t 1 * 16000 + 1 * (y 1).val = n.val; omega
  rw [he]
  exact column_apply _ 3 _ rfl rfl _ _ 0 n
theorem blk_w4 (c : Dev nD) (t : Fin cfg0.N) (y : S1x16000.Idx) (n : Fin 2000000) (hn : n.val = 16000 * t.val + (y 1).val) :
    (iblk m c 4 t : Vec F S1x16000 .f32) y = (m ((c : Thread nD τ).loc main_arg0) : S2000000x8.Idx → Elt F .f32) (ix2 n 4) := by
  unfold iblk
  rw [View.read_apply]
  show V m c main_v6 _ = _
  rw [V_w4]
  obtain ⟨e0, e1⟩ := at_w4 t
  have hy : (y 0).val < 1 := (y 0).isLt
  have he : (((cfg0.win 4).blk t).view.emb y) = ix2 (0 : Fin 1) n := by
    funext a; apply Fin.ext
    match a with
    | ⟨0, _⟩ => show win0_4.index t 0 * 1 + 1 * (y 0).val = 0; omega
    | ⟨1, _⟩ => show win0_4.index t 1 * 16000 + 1 * (y 1).val = n.val; omega
  rw [he]
  exact column_apply _ 4 _ rfl rfl _ _ 0 n
theorem blk_w5 (c : Dev nD) (t : Fin cfg0.N) (y : S1x16000.Idx) (n : Fin 2000000) (hn : n.val = 16000 * t.val + (y 1).val) :
    (iblk m c 5 t : Vec F S1x16000 .f32) y = (m ((c : Thread nD τ).loc main_arg0) : S2000000x8.Idx → Elt F .f32) (ix2 n 5) := by
  unfold iblk
  rw [View.read_apply]
  show V m c main_v7 _ = _
  rw [V_w5]
  obtain ⟨e0, e1⟩ := at_w5 t
  have hy : (y 0).val < 1 := (y 0).isLt
  have he : (((cfg0.win 5).blk t).view.emb y) = ix2 (0 : Fin 1) n := by
    funext a; apply Fin.ext
    match a with
    | ⟨0, _⟩ => show win0_5.index t 0 * 1 + 1 * (y 0).val = 0; omega
    | ⟨1, _⟩ => show win0_5.index t 1 * 16000 + 1 * (y 1).val = n.val; omega
  rw [he]
  exact column_apply _ 5 _ rfl rfl _ _ 0 n
theorem blk_w6 (c : Dev nD) (t : Fin cfg0.N) (y : S1x16000.Idx) (n : Fin 2000000) (hn : n.val = 16000 * t.val + (y 1).val) :
    (iblk m c 6 t : Vec F S1x16000 .f32) y = (m ((c : Thread nD τ).loc main_arg0) : S2000000x8.Idx → Elt F .f32) (ix2 n 6) := by
  unfold iblk
  rw [View.read_apply]
  show V m c main_v8 _ = _
  rw [V_w6]
  obtain ⟨e0, e1⟩ := at_w6 t
  have hy : (y 0).val < 1 := (y 0).isLt
  have he : (((cfg0.win 6).blk t).view.emb y) = ix2 (0 : Fin 1) n := by
    funext a; apply Fin.ext
    match a with
    | ⟨0, _⟩ => show win0_6.index t 0 * 1 + 1 * (y 0).val = 0; omega
    | ⟨1, _⟩ => show win0_6.index t 1 * 16000 + 1 * (y 1).val = n.val; omega
  rw [he]
  exact column_apply _ 6 _ rfl rfl _ _ 0 n
theorem blk_w7 (c : Dev nD) (t : Fin cfg0.N) (y : S1x16000.Idx) (n : Fin 2000000) (hn : n.val = 16000 * t.val + (y 1).val) :
    (iblk m c 7 t : Vec F S1x16000 .f32) y = (m ((c : Thread nD τ).loc main_arg0) : S2000000x8.Idx → Elt F .f32) (ix2 n 7) := by
  unfold iblk
  rw [View.read_apply]
  show V m c main_v9 _ = _
  rw [V_w7]
  obtain ⟨e0, e1⟩ := at_w7 t
  have hy : (y 0).val < 1 := (y 0).isLt
  have he : (((cfg0.win 7).blk t).view.emb y) = ix2 (0 : Fin 1) n := by
    funext a; apply Fin.ext
    match a with
    | ⟨0, _⟩ => show win0_7.index t 0 * 1 + 1 * (y 0).val = 0; omega
    | ⟨1, _⟩ => show win0_7.index t 1 * 16000 + 1 * (y 1).val = n.val; omega
  rw [he]
  exact column_apply _ 7 _ rfl rfl _ _ 0 n
theorem blk_w8 (c : Dev nD) (t : Fin cfg0.N) (y : S1x16000.Idx) (n : Fin 2000000) (hn : n.val = 16000 * t.val + (y 1).val) :
    (iblk m c 8 t : Vec F S1x16000 .f32) y = (m ((c : Thread nD τ).loc main_arg1) : S2000000x8.Idx → Elt F .f32) (ix2 n 0) := by
  unfold iblk
  rw [View.read_apply]
  show V m c main_v10 _ = _
  rw [V_w8]
  obtain ⟨e0, e1⟩ := at_w8 t
  have hy : (y 0).val < 1 := (y 0).isLt
  have he : (((cfg0.win 8).blk t).view.emb y) = ix2 (0 : Fin 1) n := by
    funext a; apply Fin.ext
    match a with
    | ⟨0, _⟩ => show win0_8.index t 0 * 1 + 1 * (y 0).val = 0; omega
    | ⟨1, _⟩ => show win0_8.index t 1 * 16000 + 1 * (y 1).val = n.val; omega
  rw [he]
  exact column_apply _ 0 _ rfl rfl _ _ 0 n
theorem blk_w9 (c : Dev nD) (t : Fin cfg0.N) (y : S1x16000.Idx) (n : Fin 2000000) (hn : n.val = 16000 * t.val + (y 1).val) :
    (iblk m c 9 t : Vec F S1x16000 .f32) y = (m ((c : Thread nD τ).loc main_arg1) : S2000000x8.Idx → Elt F .f32) (ix2 n 1) := by
  unfold iblk
  rw [View.read_apply]
  show V m c main_v11 _ = _
  rw [V_w9]
  obtain ⟨e0, e1⟩ := at_w9 t
  have hy : (y 0).val < 1 := (y 0).isLt
  have he : (((cfg0.win 9).blk t).view.emb y) = ix2 (0 : Fin 1) n := by
    funext a; apply Fin.ext
    match a with
    | ⟨0, _⟩ => show win0_9.index t 0 * 1 + 1 * (y 0).val = 0; omega
    | ⟨1, _⟩ => show win0_9.index t 1 * 16000 + 1 * (y 1).val = n.val; omega
  rw [he]
  exact column_apply _ 1 _ rfl rfl _ _ 0 n
theorem blk_w10 (c : Dev nD) (t : Fin cfg0.N) (y : S1x16000.Idx) (n : Fin 2000000) (hn : n.val = 16000 * t.val + (y 1).val) :
    (iblk m c 10 t : Vec F S1x16000 .f32) y = (m ((c : Thread nD τ).loc main_arg1) : S2000000x8.Idx → Elt F .f32) (ix2 n 2) := by
  unfold iblk
  rw [View.read_apply]
  show V m c main_v12 _ = _
  rw [V_w10]
  obtain ⟨e0, e1⟩ := at_w10 t
  have hy : (y 0).val < 1 := (y 0).isLt
  have he : (((cfg0.win 10).blk t).view.emb y) = ix2 (0 : Fin 1) n := by
    funext a; apply Fin.ext
    match a with
    | ⟨0, _⟩ => show win0_10.index t 0 * 1 + 1 * (y 0).val = 0; omega
    | ⟨1, _⟩ => show win0_10.index t 1 * 16000 + 1 * (y 1).val = n.val; omega
  rw [he]
  exact column_apply _ 2 _ rfl rfl _ _ 0 n
theorem blk_w11 (c : Dev nD) (t : Fin cfg0.N) (y : S1x16000.Idx) (n : Fin 2000000) (hn : n.val = 16000 * t.val + (y 1).val) :
    (iblk m c 11 t : Vec F S1x16000 .f32) y = (m ((c : Thread nD τ).loc main_arg1) : S2000000x8.Idx → Elt F .f32) (ix2 n 3) := by
  unfold iblk
  rw [View.read_apply]
  show V m c main_v13 _ = _
  rw [V_w11]
  obtain ⟨e0, e1⟩ := at_w11 t
  have hy : (y 0).val < 1 := (y 0).isLt
  have he : (((cfg0.win 11).blk t).view.emb y) = ix2 (0 : Fin 1) n := by
    funext a; apply Fin.ext
    match a with
    | ⟨0, _⟩ => show win0_11.index t 0 * 1 + 1 * (y 0).val = 0; omega
    | ⟨1, _⟩ => show win0_11.index t 1 * 16000 + 1 * (y 1).val = n.val; omega
  rw [he]
  exact column_apply _ 3 _ rfl rfl _ _ 0 n
theorem blk_w12 (c : Dev nD) (t : Fin cfg0.N) (y : S1x16000.Idx) (n : Fin 2000000) (hn : n.val = 16000 * t.val + (y 1).val) :
    (iblk m c 12 t : Vec F S1x16000 .f32) y = (m ((c : Thread nD τ).loc main_arg1) : S2000000x8.Idx → Elt F .f32) (ix2 n 4) := by
  unfold iblk
  rw [View.read_apply]
  show V m c main_v14 _ = _
  rw [V_w12]
  obtain ⟨e0, e1⟩ := at_w12 t
  have hy : (y 0).val < 1 := (y 0).isLt
  have he : (((cfg0.win 12).blk t).view.emb y) = ix2 (0 : Fin 1) n := by
    funext a; apply Fin.ext
    match a with
    | ⟨0, _⟩ => show win0_12.index t 0 * 1 + 1 * (y 0).val = 0; omega
    | ⟨1, _⟩ => show win0_12.index t 1 * 16000 + 1 * (y 1).val = n.val; omega
  rw [he]
  exact column_apply _ 4 _ rfl rfl _ _ 0 n
theorem blk_w13 (c : Dev nD) (t : Fin cfg0.N) (y : S1x16000.Idx) (n : Fin 2000000) (hn : n.val = 16000 * t.val + (y 1).val) :
    (iblk m c 13 t : Vec F S1x16000 .f32) y = (m ((c : Thread nD τ).loc main_arg1) : S2000000x8.Idx → Elt F .f32) (ix2 n 5) := by
  unfold iblk
  rw [View.read_apply]
  show V m c main_v15 _ = _
  rw [V_w13]
  obtain ⟨e0, e1⟩ := at_w13 t
  have hy : (y 0).val < 1 := (y 0).isLt
  have he : (((cfg0.win 13).blk t).view.emb y) = ix2 (0 : Fin 1) n := by
    funext a; apply Fin.ext
    match a with
    | ⟨0, _⟩ => show win0_13.index t 0 * 1 + 1 * (y 0).val = 0; omega
    | ⟨1, _⟩ => show win0_13.index t 1 * 16000 + 1 * (y 1).val = n.val; omega
  rw [he]
  exact column_apply _ 5 _ rfl rfl _ _ 0 n
theorem blk_w14 (c : Dev nD) (t : Fin cfg0.N) (y : S1x16000.Idx) (n : Fin 2000000) (hn : n.val = 16000 * t.val + (y 1).val) :
    (iblk m c 14 t : Vec F S1x16000 .f32) y = (m ((c : Thread nD τ).loc main_arg1) : S2000000x8.Idx → Elt F .f32) (ix2 n 6) := by
  unfold iblk
  rw [View.read_apply]
  show V m c main_v16 _ = _
  rw [V_w14]
  obtain ⟨e0, e1⟩ := at_w14 t
  have hy : (y 0).val < 1 := (y 0).isLt
  have he : (((cfg0.win 14).blk t).view.emb y) = ix2 (0 : Fin 1) n := by
    funext a; apply Fin.ext
    match a with
    | ⟨0, _⟩ => show win0_14.index t 0 * 1 + 1 * (y 0).val = 0; omega
    | ⟨1, _⟩ => show win0_14.index t 1 * 16000 + 1 * (y 1).val = n.val; omega
  rw [he]
  exact column_apply _ 6 _ rfl rfl _ _ 0 n
theorem blk_w15 (c : Dev nD) (t : Fin cfg0.N) (y : S1x16000.Idx) (n : Fin 2000000) (hn : n.val = 16000 * t.val + (y 1).val) :
    (iblk m c 15 t : Vec F S1x16000 .f32) y = (m ((c : Thread nD τ).loc main_arg1) : S2000000x8.Idx → Elt F .f32) (ix2 n 7) := by
  unfold iblk
  rw [View.read_apply]
  show V m c main_v17 _ = _
  rw [V_w15]
  obtain ⟨e0, e1⟩ := at_w15 t
  have hy : (y 0).val < 1 := (y 0).isLt
  have he : (((cfg0.win 15).blk t).view.emb y) = ix2 (0 : Fin 1) n := by
    funext a; apply Fin.ext
    match a with
    | ⟨0, _⟩ => show win0_15.index t 0 * 1 + 1 * (y 0).val = 0; omega
    | ⟨1, _⟩ => show win0_15.index t 1 * 16000 + 1 * (y 1).val = n.val; omega
  rw [he]
  exact column_apply _ 7 _ rfl rfl _ _ 0 n

end Cert.KernelIdeal.Arrays

end
-- ==== Proof.KernelBlocks.lean ====
/-
  From the blocks to the whole output array.

  At point `t` the kernel's output block holds, at lane `y`, the loss of the sample whose sixteen entries sit at
  lane `y` of the sixteen input blocks: sample `16000 t + y` of the two arguments. That block is written back to
  lanes `16000 t … 16000 t + 15999` of the [1, 2000000] output array, and the 125 points' blocks tile it: lane `n`
  belongs to point `n / 16000`. So after the region the output array holds, at (0, n), the loss of sample `n`.
-/
import proofs.«139330_j25202868093039_1_alg».proof.Proof.KernelLane
import proofs.«139330_j25202868093039_1_alg».proof.Proof.KernelArrays
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The predicted and the target quadrilaterals as launched on core `c`. -/
abbrev predArr (c : Dev nD) : FVec Ideal S2000000x8 .f32 := m ((c : Thread nD τ).loc main_arg0)
abbrev tgtArr (c : Dev nD) : FVec Ideal S2000000x8 .f32 := m ((c : Thread nD τ).loc main_arg1)

/-- The samples' losses laid along the lanes of one row: entry (0, n) is the loss of sample `n`. -/
def lossRow (x y : FVec Ideal S2000000x8 .f32) : FVec Ideal S1x2000000 .f32 :=
  fun i => Cert.Matching.loss (Cert.Matching.sample x (i 1)) (Cert.Matching.sample y (i 1))

set_option maxHeartbeats 2000000 in
/-- What point `t` writes back is block `t` of the row of losses. -/
theorem flushed_eq (c : Dev nD) (t : Fin cfg0.N) :
    (dats m 0 c).flushed 16 t = ((cfg0.win 16).blk t).view.read (Elt Ideal) (lossRow (predArr m c) (tgtArr m c)) := by
  show (cfg0.win 16).cut (grid0.coords t) ((dats m 0 c).after 16 t) = _
  rw [after0_16]
  funext y
  refine (congrFun (Lane.block_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) y).trans ?_
  rw [View.read_apply]
  obtain ⟨e0, e1⟩ := Arrays.at_w16 t
  have ht : t.val < 125 := Nat.lt_of_lt_of_eq t.isLt N_0
  have hy1 : (y 1).val < 16000 := (y 1).isLt
  have hy0 : (y 0).val < 1 := (y 0).isLt
  obtain ⟨n, hn⟩ : ∃ n : Fin 2000000, n.val = 16000 * t.val + (y 1).val := ⟨⟨16000 * t.val + (y 1).val, by omega⟩, rfl⟩
  have he : ((cfg0.win 16).blk t).view.emb y = ix2 (0 : Fin 1) n := by
    funext a; apply Fin.ext
    match a with
    | ⟨0, _⟩ => show win0_16.index t 0 * 1 + 1 * (y 0).val = 0; omega
    | ⟨1, _⟩ => show win0_16.index t 1 * 16000 + 1 * (y 1).val = n.val; omega
  rw [he]
  have hp : (![(iblk m c 0 t : Vec Ideal S1x16000 .f32) y, (iblk m c 1 t : Vec Ideal S1x16000 .f32) y, (iblk m c 2 t : Vec Ideal S1x16000 .f32) y, (iblk m c 3 t : Vec Ideal S1x16000 .f32) y, (iblk m c 4 t : Vec Ideal S1x16000 .f32) y, (iblk m c 5 t : Vec Ideal S1x16000 .f32) y, (iblk m c 6 t : Vec Ideal S1x16000 .f32) y, (iblk m c 7 t : Vec Ideal S1x16000 .f32) y] : Fin 8 → EReal) = Cert.Matching.sample (predArr m c) n := by
    funext k
    match k with
    | ⟨0, _⟩ => exact Arrays.blk_w0 m c t y n hn
    | ⟨1, _⟩ => exact Arrays.blk_w1 m c t y n hn
    | ⟨2, _⟩ => exact Arrays.blk_w2 m c t y n hn
    | ⟨3, _⟩ => exact Arrays.blk_w3 m c t y n hn
    | ⟨4, _⟩ => exact Arrays.blk_w4 m c t y n hn
    | ⟨5, _⟩ => exact Arrays.blk_w5 m c t y n hn
    | ⟨6, _⟩ => exact Arrays.blk_w6 m c t y n hn
    | ⟨7, _⟩ => exact Arrays.blk_w7 m c t y n hn
  have hq : (![(iblk m c 8 t : Vec Ideal S1x16000 .f32) y, (iblk m c 9 t : Vec Ideal S1x16000 .f32) y, (iblk m c 10 t : Vec Ideal S1x16000 .f32) y, (iblk m c 11 t : Vec Ideal S1x16000 .f32) y, (iblk m c 12 t : Vec Ideal S1x16000 .f32) y, (iblk m c 13 t : Vec Ideal S1x16000 .f32) y, (iblk m c 14 t : Vec Ideal S1x16000 .f32) y, (iblk m c 15 t : Vec Ideal S1x16000 .f32) y] : Fin 8 → EReal) = Cert.Matching.sample (tgtArr m c) n := by
    funext k
    match k with
    | ⟨0, _⟩ => exact Arrays.blk_w8 m c t y n hn
    | ⟨1, _⟩ => exact Arrays.blk_w9 m c t y n hn
    | ⟨2, _⟩ => exact Arrays.blk_w10 m c t y n hn
    | ⟨3, _⟩ => exact Arrays.blk_w11 m c t y n hn
    | ⟨4, _⟩ => exact Arrays.blk_w12 m c t y n hn
    | ⟨5, _⟩ => exact Arrays.blk_w13 m c t y n hn
    | ⟨6, _⟩ => exact Arrays.blk_w14 m c t y n hn
    | ⟨7, _⟩ => exact Arrays.blk_w15 m c t y n hn
  show Cert.Matching.loss _ _ = Cert.Matching.loss (Cert.Matching.sample (predArr m c) n) (Cert.Matching.sample (tgtArr m c) n)
  rw [← hp, ← hq]

/-- After the region the output array is the row of losses: the blocks written back tile it. -/
theorem final (c : Dev nD) : (dats m 0 c).arrAt 16 cfg0.N = lossRow (predArr m c) (tgtArr m c) :=
  (dats m 0 c).arrAt_eq_of_cover 16 (lossRow (predArr m c) (tgtArr m c)) (fun t _ => flushed_eq m c t) fun i => by
    have hi1 : (i 1).val < 2000000 := (i 1).isLt
    have hi0 : (i 0).val < 1 := (i 0).isLt
    have hN : cfg0.N = 125 := N_0
    obtain ⟨t, ht⟩ : ∃ t : Fin cfg0.N, t.val = (i 1).val / 16000 := ⟨⟨(i 1).val / 16000, by rw [hN]; omega⟩, rfl⟩
    refine ⟨t, flush0_16 t, ?_⟩
    show i ∈ ((View.whole main_v18).slice (win0_16.rect t)).set
    rw [View.set_slice_whole, Rect.mem_set_unit]
    obtain ⟨e0, e1⟩ := Arrays.at_w16 t
    intro a
    match a with
    | ⟨0, _⟩ => show win0_16.index t 0 * 1 ≤ (i 0).val ∧ (i 0).val < win0_16.index t 0 * 1 + 1; omega
    | ⟨1, _⟩ => show win0_16.index t 1 * 16000 ≤ (i 1).val ∧ (i 1).val < win0_16.index t 1 * 16000 + 16000; omega

end Cert.KernelIdeal.Blocks

end
-- ==== Proof.KernelRun.lean ====
/-
  The kernel program's run, read: its result is the batch's loss.

  After the region the program views the [1, 2000000] row of per-sample losses as a vector (entry `n` of the vector
  is entry (0, n) of the row), multiplies by the unit weight, sums from zero and divides by two million: the mean of
  the samples' losses. The arguments are never written.
-/
import proofs.«139330_j25202868093039_1_alg».proof.Proof.KernelBlocks
import Idealize.ShloMosaic.Lib.StableHlo.Run
import Idealize.ShloMosaic.Lib.ValueLayout

set_option maxRecDepth 16384

noncomputable section

namespace Cert.KernelIdeal.Run

open Cert.KernelIdeal Cert.KernelIdeal.Gen Idealize.ShloMosaic Idealize.ShloMosaic.TcCoe Idealize.SL.Sem Idealize.ShloMosaic.StableHlo
open Idealize.ShloMosaic.ValueIdx
open Cert.KernelIdeal.Blocks

variable (m : (ℓ : Loc nD τ sig) → Buf (Elt Ideal) ℓ) (ρ : Dev nD → PrngReg)

/-- The row of losses viewed as a vector is the samples' losses in order. -/
theorem row_as_vector (x y : FVec Ideal S2000000x8 .f32) (h : S1x2000000.ShapeCasts S2000000) :
    (fun i => shapeCast S2000000 (lossRow x y) h i)
      = fun i : Cert.Matching.Batch.Idx => Cert.Matching.loss (Cert.Matching.sample x (i 0)) (Cert.Matching.sample y (i 0)) := by
  funext i
  obtain ⟨n, rfl⟩ : ∃ n : Fin 2000000, i = ix1 n := ⟨i 0, eq_ix1 i⟩
  exact shapeCast_1a_a_apply (lossRow x y) h n

/-- What the operations after the region leave in the result buffer: the batch's loss. -/
theorem tail_eq (c : Dev nD) :
    Pipeline.afterTail₀ cfgs (dats m) 0 (V0 m) [hostOps1] c main_v23 = Cert.Matching.batchLoss (predArr m c) (tgtArr m c) := by
  unfold Pipeline.afterTail₀
  show StableHlo.after hostOps1 _ (Proc.devRef .tc main_v23) = _
  after_results
  -- the output array is the row of losses
  have hW : Pipeline.withArrays (cfgs 0).spec c (V0 m c) (fun w => (dats m 0 c).arrAt w (cfgs 0).N) (Proc.devRef .tc main_v18)
      = lossRow (predArr m c) (tgtArr m c) :=
    (Pipeline.withArrays_arr spec0 launch0.win.arr_inj c _ _ 16).trans (Blocks.final m c)
  rw [hW]
  show Host.divf (Host.reduceAdd (mulf (fun i => shapeCast S2000000 (lossRow (predArr m c) (tgtArr m c)) shapeCasts_S1x2000000_S2000000 i) _) _ _ _) _ = _
  rw [row_as_vector]
  rfl

/-- Every weakly fair execution of the kernel program ends with the batch's loss in its result buffer and the two
    arguments as launched. -/
theorem run : θ_run defs (onTc (τ := τ) (main (F := Ideal))) ⟨m, fun _ => 0, ρ⟩ fun r => ∀ c : Dev nD,
      r.2.mem ((c.tc : Thread nD τ).loc main_v23) = Cert.Matching.batchLoss (predArr m c) (tgtArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v23 (Pipeline.mem_restRefs_of main_v23 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Run

end
-- ==== Proof.RefTerm.lean ====
/-
  What the reference computes, as one function of its two argument arrays, stage by stage.

  Each [2000000, 8] array is read as 2000000 quadrilaterals of four corners of two coordinates. Every predicted
  corner is set against every target corner (the predicted corners spread along a new target axis, the target
  corners along a new predicted axis), coordinate distances are taken and put through the wing loss, and the two
  coordinates are summed: a [2000000, 4, 4] array of costs, target corner first. A [24, 4, 2] table of index pairs
  (target corner, assigned predicted corner), one row of four pairs per assignment, gathers the four costs of each
  assignment; they are summed, the least of the 24 sums is taken per sample, and the batch's mean closes it.
-/
import proofs.«139330_j25202868093039_1_alg».proof.Proof.Gen.ReferenceIdeal

noncomputable section

namespace Cert.ReferenceIdeal.Term

open Cert.ReferenceIdeal Cert.ReferenceIdeal.Gen Idealize.ShloMosaic

variable {F : FTy → Type} [FloatOps F]

/-- A sample's eight entries as four corners of two coordinates. -/
def corners (x : FVec F S2000000x8 .f32) : FVec F S2000000x4x2 .f32 :=
  shapeCast S2000000x4x2 x shapeCasts_S2000000x8_S2000000x4x2

/-- The predicted corners repeated along a new target-corner axis (axis 1). -/
def spreadPred (u : FVec F S2000000x4x2 .f32) : FVec F S2000000x4x4x2 .f32 :=
  broadcastInDim S2000000x4x4x2 ![0, 1, 2, 3] bcast_S2000000x1x4x2_S2000000x4x4x2_0_1_2_3
    (broadcastInDim S2000000x1x4x2 ![0, 2, 3] bcast_S2000000x4x2_S2000000x1x4x2_0_2_3 u)

/-- The target corners repeated along a new predicted-corner axis (axis 2). -/
def spreadTgt (u : FVec F S2000000x4x2 .f32) : FVec F S2000000x4x4x2 .f32 :=
  broadcastInDim S2000000x4x4x2 ![0, 1, 2, 3] bcast_S2000000x4x1x2_S2000000x4x4x2_0_1_2_3
    (broadcastInDim S2000000x4x1x2 ![0, 1, 3] bcast_S2000000x4x2_S2000000x4x1x2_0_1_3 u)

/-- The coordinate distances: entry (n, i, j, d) is |pred corner j − target corner i| at coordinate d. -/
def dists (x y : FVec F S2000000x8 .f32) : FVec F S2000000x4x4x2 .f32 :=
  Host.absf (subf (spreadPred (corners x)) (spreadTgt (corners y)))

/-- A scalar word repeated over the distances' shape. -/
def fill (w : BitVec 32) : FVec F S2000000x4x4x2 .f32 :=
  broadcastInDim S2000000x4x4x2 ![] bcast_S_S2000000x4x4x2 (constant S_ .f32 w)

/-- The wing loss, entry by entry. -/
def wings (d : FVec F S2000000x4x4x2 .f32) : FVec F S2000000x4x4x2 .f32 :=
  select (cmpf .olt d (fill 0x41200000#32))
    (mulf (fill 0x41200000#32) (Host.log1p (Host.divf d (fill 0x40000000#32))))
    (subf d (fill 0xC0FD5CF0#32))

/-- The costs: the two coordinates' wing losses summed from zero. -/
def costs (w : FVec F S2000000x4x4x2 .f32) : FVec F S2000000x4x4 .f32 :=
  Host.reduceAdd w (constant S_ .f32 0x00000000#32) reducesTo_S2000000x4x4x2_S2000000x4x4_d3 h_S_

/-- The target-corner numbers 0..3, one row per assignment. -/
def rows : IVec S24x4 32 :=
  broadcastInDim S24x4 ![1] bcast_S4_S24x4_1 (fun i => lit0 (S4.rowMajor i))

/-- The 24 assignments' predicted-corner numbers. -/
def perms : IVec S24x4 32 := fun i => lit1 (S24x4.rowMajor i)

/-- An index array with negative entries wrapped by four (none is negative: the mask is constantly false). -/
def wrapped (a : IVec S24x4 32) : IVec S24x4 32 :=
  select (constantI S24x4 1 0#1) (addi a (broadcastInDim S24x4 ![] bcast_S_S24x4 (constantI S_ 32 4#32))) a

/-- The table of index pairs (target corner, predicted corner). -/
def table : IVec S24x4x2 32 :=
  concatenate S24x4x2 2
    [⟨S24x4x1, broadcastInDim S24x4x1 ![0, 1] bcast_S24x4_S24x4x1_0_1 (wrapped rows)⟩,
     ⟨S24x4x1, broadcastInDim S24x4x1 ![0, 1] bcast_S24x4_S24x4x1_0_1 (wrapped perms)⟩]
    concatenates_S24x4x1_S24x4x1_S24x4x2_d2

/-- Each assignment's four costs. -/
def gathered (c : FVec F S2000000x4x4 .f32) : FVec F S2000000x24x4 .f32 :=
  Host.gather gather_S2000000x4x4_S24x4x2_S2000000x24x4_0_12_n_n_12_2_200000011 c table

/-- Each assignment's total, summed from zero. -/
def totals (g : FVec F S2000000x24x4 .f32) : FVec F S2000000x24 .f32 :=
  Host.reduceAdd g (constant S_ .f32 0x00000000#32) reducesTo_S2000000x24x4_S2000000x24_d2 h_S_

/-- The least total per sample, from +∞. -/
def least (t : FVec F S2000000x24 .f32) : FVec F S2000000 .f32 :=
  Host.reduce FloatOps.minimumf t (constant S_ .f32 0x7F800000#32) reducesTo_S2000000x24_S2000000_d1 h_S_

/-- The batch's mean: each loss times the unit weight, summed from zero, over two million. -/
def meanOf (v : FVec F S2000000 .f32) : FVec F S_ .f32 :=
  Host.divf
    (Host.reduceAdd (mulf v (broadcastInDim S2000000 ![] bcast_S_S2000000 (constant S_ .f32 0x3F800000#32)))
      (constant S_ .f32 0x00000000#32) reducesTo_S2000000_S_d0 h_S_)
    (constant S_ .f32 0x49F42400#32)

/-- The reference's result as a function of its arguments. -/
def result (x y : FVec F S2000000x8 .f32) : FVec F S_ .f32 :=
  meanOf (least (totals (gathered (costs (wings (dists x y))))))

end Cert.ReferenceIdeal.Term

end
-- ==== Proof.RefRun.lean ====
/-
  The reference program's run, read back as one function of its two arguments.

  The program is a straight line of fifty-two whole-array operations; the one it delegates to an outlined
  function (the choice between the two branches of the wing loss) is a single entrywise selection, listed
  here in its place. Run from any memory, the line ends with every buffer at the fold of the operations over
  the launch contents; at the last buffer that fold is the staged function `Term.result` of the two argument
  arrays, and the argument buffers are written by no operation.
-/
import proofs.«139330_j25202868093039_1_alg».proof.Proof.RefTerm
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The fifty-two operations in program order; the twenty-seventh is the outlined selection, written at the
    buffers its one call names. -/
abbrev ops : List (HloOp τ sig (Elt F)) :=
  [ nullary main_c (fun i => lit0 (S4.rowMajor i)),
    unary main_c main_v0 (broadcastInDim S24x4 ![1] bcast_S4_S24x4_1 : (⟨S4, .i32⟩ : BufTy).Contents (Elt F) → (⟨S24x4, .i32⟩ : BufTy).Contents (Elt F)),
    nullary main_c_0 (constantI S24x4 1 0#1),
    nullary main_c_1 (fun i => lit1 (S24x4.rowMajor i)),
    nullary main_c_2 (constantI S24x4 1 0#1),
    reshape main_arg0 main_v1 rfl shapeCasts_S2000000x8_S2000000x4x2,
    reshape main_arg1 main_v2 rfl shapeCasts_S2000000x8_S2000000x4x2,
    unary main_v1 main_v3 (broadcastInDim S2000000x1x4x2 ![0, 2, 3] bcast_S2000000x4x2_S2000000x1x4x2_0_2_3 : (⟨S2000000x4x2, .f32⟩ : BufTy).Contents (Elt F) → (⟨S2000000x1x4x2, .f32⟩ : BufTy).Contents (Elt F)),
    unary main_v2 main_v4 (broadcastInDim S2000000x4x1x2 ![0, 1, 3] bcast_S2000000x4x2_S2000000x4x1x2_0_1_3 : (⟨S2000000x4x2, .f32⟩ : BufTy).Contents (Elt F) → (⟨S2000000x4x1x2, .f32⟩ : BufTy).Contents (Elt F)),
    unary main_v3 main_v5 (broadcastInDim S2000000x4x4x2 ![0, 1, 2, 3] bcast_S2000000x1x4x2_S2000000x4x4x2_0_1_2_3 : (⟨S2000000x1x4x2, .f32⟩ : BufTy).Contents (Elt F) → (⟨S2000000x4x4x2, .f32⟩ : BufTy).Contents (Elt F)),
    unary main_v4 main_v6 (broadcastInDim S2000000x4x4x2 ![0, 1, 2, 3] bcast_S2000000x4x1x2_S2000000x4x4x2_0_1_2_3 : (⟨S2000000x4x1x2, .f32⟩ : BufTy).Contents (Elt F) → (⟨S2000000x4x4x2, .f32⟩ : BufTy).Contents (Elt F)),
    binary main_v5 main_v6 main_v7 (subf : (⟨S2000000x4x4x2, .f32⟩ : BufTy).Contents (Elt F) → (⟨S2000000x4x4x2, .f32⟩ : BufTy).Contents (Elt F) → (⟨S2000000x4x4x2, .f32⟩ : BufTy).Contents (Elt F)),
    unary main_v7 main_v8 (Host.absf : (⟨S2000000x4x4x2, .f32⟩ : BufTy).Contents (Elt F) → (⟨S2000000x4x4x2, .f32⟩ : BufTy).Contents (Elt F)),
    nullary main_cst (constant S_ .f32 0x41200000#32),
    unary main_cst main_v9 (broadcastInDim S2000000x4x4x2 ![] bcast_S_S2000000x4x4x2 : (⟨S_, .f32⟩ : BufTy).Contents (Elt F) → (⟨S2000000x4x4x2, .f32⟩ : BufTy).Contents (Elt F)),
    binary main_v8 main_v9 main_v10 (cmpf .olt : (⟨S2000000x4x4x2, .f32⟩ : BufTy).Contents (Elt F) → (⟨S2000000x4x4x2, .f32⟩ : BufTy).Contents (Elt F) → (⟨S2000000x4x4x2, .i1⟩ : BufTy).Contents (Elt F)),
    nullary main_cst_3 (constant S_ .f32 0x40000000#32),
    unary main_cst_3 main_v11 (broadcastInDim S2000000x4x4x2 ![] bcast_S_S2000000x4x4x2 : (⟨S_, .f32⟩ : BufTy).Contents (Elt F) → (⟨S2000000x4x4x2, .f32⟩ : BufTy).Contents (Elt F)),
    binary main_v8 main_v11 main_v12 (Host.divf : (⟨S2000000x4x4x2, .f32⟩ : BufTy).Contents (Elt F) → (⟨S2000000x4x4x2, .f32⟩ : BufTy).Contents (Elt F) → (⟨S2000000x4x4x2, .f32⟩ : BufTy).Contents (Elt F)),
    unary main_v12 main_v13 (Host.log1p : (⟨S2000000x4x4x2, .f32⟩ : BufTy).Contents (Elt F) → (⟨S2000000x4x4x2, .f32⟩ : BufTy).Contents (Elt F)),
    nullary main_cst_4 (constant S_ .f32 0x41200000#32),
    unary main_cst_4 main_v14 (broadcastInDim S2000000x4x4x2 ![] bcast_S_S2000000x4x4x2 : (⟨S_, .f32⟩ : BufTy).Contents (Elt F) → (⟨S2000000x4x4x2, .f32⟩ : BufTy).Contents (Elt F)),
    binary main_v14 main_v13 main_v15 (mulf : (⟨S2000000x4x4x2, .f32⟩ : BufTy).Contents (Elt F) → (⟨S2000000x4x4x2, .f32⟩ : BufTy).Contents (Elt F) → (⟨S2000000x4x4x2, .f32⟩ : BufTy).Contents (Elt F)),
    nullary main_cst_5 (constant S_ .f32 0xC0FD5CF0#32),
    unary main_cst_5 main_v16 (broadcastInDim S2000000x4x4x2 ![] bcast_S_S2000000x4x4x2 : (⟨S_, .f32⟩ : BufTy).Contents (Elt F) → (⟨S2000000x4x4x2, .f32⟩ : BufTy).Contents (Elt F)),
    binary main_v8 main_v16 main_v17 (subf : (⟨S2000000x4x4x2, .f32⟩ : BufTy).Contents (Elt F) → (⟨S2000000x4x4x2, .f32⟩ : BufTy).Contents (Elt F) → (⟨S2000000x4x4x2, .f32⟩ : BufTy).Contents (Elt F)),
    TRef.ternary (.of main_v10 : TRef sig ⟨S2000000x4x4x2, .i1⟩) (.of main_v15 : TRef sig ⟨S2000000x4x4x2, .f32⟩) (.of main_v17 : TRef sig ⟨S2000000x4x4x2, .f32⟩) main_call0.v0 select,
    nullary main_cst_6 (constant S_ .f32 0x00000000#32),
    binary main_v18 main_cst_6 main_v19 ((fun x v => Host.reduceAdd x v reducesTo_S2000000x4x4x2_S2000000x4x4_d3 h_S_) : (⟨S2000000x4x4x2, .f32⟩ : BufTy).Contents (Elt F) → (⟨S_, .f32⟩ : BufTy).Contents (Elt F) → (⟨S2000000x4x4, .f32⟩ : BufTy).Contents (Elt F)),
    nullary main_c_7 (constantI S_ 32 4#32),
    unary main_c_7 main_v20 (broadcastInDim S24x4 ![] bcast_S_S24x4 : (⟨S_, .i32⟩ : BufTy).Contents (Elt F) → (⟨S24x4, .i32⟩ : BufTy).Contents (Elt F)),
    binary main_v0 main_v20 main_v21 (addi : (⟨S24x4, .i32⟩ : BufTy).Contents (Elt F) → (⟨S24x4, .i32⟩ : BufTy).Contents (Elt F) → (⟨S24x4, .i32⟩ : BufTy).Contents (Elt F)),
    ternary main_c_0 main_v21 main_v0 main_v22 (select : (⟨S24x4, .i1⟩ : BufTy).Contents (Elt F) → (⟨S24x4, .i32⟩ : BufTy).Contents (Elt F) → (⟨S24x4, .i32⟩ : BufTy).Contents (Elt F) → (⟨S24x4, .i32⟩ : BufTy).Contents (Elt F)),
    nullary main_c_8 (constantI S_ 32 4#32),
    unary main_c_8 main_v23 (broadcastInDim S24x4 ![] bcast_S_S24x4 : (⟨S_, .i32⟩ : BufTy).Contents (Elt F) → (⟨S24x4, .i32⟩ : BufTy).Contents (Elt F)),
    binary main_c_1 main_v23 main_v24 (addi : (⟨S24x4, .i32⟩ : BufTy).Contents (Elt F) → (⟨S24x4, .i32⟩ : BufTy).Contents (Elt F) → (⟨S24x4, .i32⟩ : BufTy).Contents (Elt F)),
    ternary main_c_2 main_v24 main_c_1 main_v25 (select : (⟨S24x4, .i1⟩ : BufTy).Contents (Elt F) → (⟨S24x4, .i32⟩ : BufTy).Contents (Elt F) → (⟨S24x4, .i32⟩ : BufTy).Contents (Elt F) → (⟨S24x4, .i32⟩ : BufTy).Contents (Elt F)),
    unary main_v22 main_v26 (broadcastInDim S24x4x1 ![0, 1] bcast_S24x4_S24x4x1_0_1 : (⟨S24x4, .i32⟩ : BufTy).Contents (Elt F) → (⟨S24x4x1, .i32⟩ : BufTy).Contents (Elt F)),
    unary main_v25 main_v27 (broadcastInDim S24x4x1 ![0, 1] bcast_S24x4_S24x4x1_0_1 : (⟨S24x4, .i32⟩ : BufTy).Contents (Elt F) → (⟨S24x4x1, .i32⟩ : BufTy).Contents (Elt F)),
    binary main_v26 main_v27 main_v28 ((fun a b => concatenate S24x4x2 2 [⟨S24x4x1, a⟩, ⟨S24x4x1, b⟩] concatenates_S24x4x1_S24x4x1_S24x4x2_d2) : (⟨S24x4x1, .i32⟩ : BufTy).Contents (Elt F) → (⟨S24x4x1, .i32⟩ : BufTy).Contents (Elt F) → (⟨S24x4x2, .i32⟩ : BufTy).Contents (Elt F)),
    binary main_v19 main_v28 main_v29 ((fun x i => Host.gather gather_S2000000x4x4_S24x4x2_S2000000x24x4_0_12_n_n_12_2_200000011 x i) : (⟨S2000000x4x4, .f32⟩ : BufTy).Contents (Elt F) → (⟨S24x4x2, .i32⟩ : BufTy).Contents (Elt F) → (⟨S2000000x24x4, .f32⟩ : BufTy).Contents (Elt F)),
    nullary main_cst_9 (constant S_ .f32 0x00000000#32),
    binary main_v29 main_cst_9 main_v30 ((fun x v => Host.reduceAdd x v reducesTo_S2000000x24x4_S2000000x24_d2 h_S_) : (⟨S2000000x24x4, .f32⟩ : BufTy).Contents (Elt F) → (⟨S_, .f32⟩ : BufTy).Contents (Elt F) → (⟨S2000000x24, .f32⟩ : BufTy).Contents (Elt F)),
    nullary main_cst_10 (constant S_ .f32 0x7F800000#32),
    binary main_v30 main_cst_10 main_v31 ((fun x v => Host.reduce FloatOps.minimumf x v reducesTo_S2000000x24_S2000000_d1 h_S_) : (⟨S2000000x24, .f32⟩ : BufTy).Contents (Elt F) → (⟨S_, .f32⟩ : BufTy).Contents (Elt F) → (⟨S2000000, .f32⟩ : BufTy).Contents (Elt F)),
    nullary main_cst_11 (constant S_ .f32 0x3F800000#32),
    unary main_cst_11 main_v32 (broadcastInDim S2000000 ![] bcast_S_S2000000 : (⟨S_, .f32⟩ : BufTy).Contents (Elt F) → (⟨S2000000, .f32⟩ : BufTy).Contents (Elt F)),
    binary main_v31 main_v32 main_v33 (mulf : (⟨S2000000, .f32⟩ : BufTy).Contents (Elt F) → (⟨S2000000, .f32⟩ : BufTy).Contents (Elt F) → (⟨S2000000, .f32⟩ : BufTy).Contents (Elt F)),
    nullary main_cst_12 (constant S_ .f32 0x00000000#32),
    binary main_v33 main_cst_12 main_v34 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
    nullary main_cst_13 (constant S_ .f32 0x49F42400#32),
    binary main_v34 main_cst_13 main_v35 (Host.divf : (⟨S_, .f32⟩ : BufTy).Contents (Elt F) → (⟨S_, .f32⟩ : BufTy).Contents (Elt F) → (⟨S_, .f32⟩ : BufTy).Contents (Elt F)) ]

set_option maxRecDepth 1024 in
/-- The program is that line: with the outlined function's body put at its call and the sequencing
    reassociated, both sides are the same chain of steps. -/
theorem main_eq (c : Dev nD) : main (F := F) c = seq ops := by
  simp only [main, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches only buffers of the signature. -/
theorem ops_sub : (ops : List (HloOp τ sig (Elt F))).Forall fun op => op.bufs ⊆ tcRefs τ sig :=
  ⟨nullary_bufs_sub .., unary_bufs_sub .., nullary_bufs_sub .., nullary_bufs_sub .., nullary_bufs_sub .., reshape_bufs_sub ..,
    reshape_bufs_sub .., unary_bufs_sub .., unary_bufs_sub .., unary_bufs_sub .., unary_bufs_sub .., binary_bufs_sub ..,
    unary_bufs_sub .., nullary_bufs_sub .., unary_bufs_sub .., binary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., nullary_bufs_sub .., binary_bufs_sub .., nullary_bufs_sub ..,
    unary_bufs_sub .., binary_bufs_sub .., ternary_bufs_sub .., nullary_bufs_sub .., unary_bufs_sub .., binary_bufs_sub ..,
    ternary_bufs_sub .., unary_bufs_sub .., unary_bufs_sub .., binary_bufs_sub .., binary_bufs_sub .., nullary_bufs_sub ..,
    binary_bufs_sub .., nullary_bufs_sub .., binary_bufs_sub .., nullary_bufs_sub .., unary_bufs_sub .., binary_bufs_sub ..,
    nullary_bufs_sub .., binary_bufs_sub .., nullary_bufs_sub .., binary_bufs_sub ..⟩

/-! The line cut into six consecutive stretches: the index constants; the corner distances; the wing loss;
    the coordinate sum; the table of index pairs; the gather, the sums, the least and the mean. -/

abbrev opsA : List (HloOp τ sig (Elt F)) :=
  [ nullary main_c (fun i => lit0 (S4.rowMajor i)),
    unary main_c main_v0 (broadcastInDim S24x4 ![1] bcast_S4_S24x4_1 : (⟨S4, .i32⟩ : BufTy).Contents (Elt F) → (⟨S24x4, .i32⟩ : BufTy).Contents (Elt F)),
    nullary main_c_0 (constantI S24x4 1 0#1),
    nullary main_c_1 (fun i => lit1 (S24x4.rowMajor i)),
    nullary main_c_2 (constantI S24x4 1 0#1) ]

abbrev opsB : List (HloOp τ sig (Elt F)) :=
  [ reshape main_arg0 main_v1 rfl shapeCasts_S2000000x8_S2000000x4x2,
    reshape main_arg1 main_v2 rfl shapeCasts_S2000000x8_S2000000x4x2,
    unary main_v1 main_v3 (broadcastInDim S2000000x1x4x2 ![0, 2, 3] bcast_S2000000x4x2_S2000000x1x4x2_0_2_3 : (⟨S2000000x4x2, .f32⟩ : BufTy).Contents (Elt F) → (⟨S2000000x1x4x2, .f32⟩ : BufTy).Contents (Elt F)),
    unary main_v2 main_v4 (broadcastInDim S2000000x4x1x2 ![0, 1, 3] bcast_S2000000x4x2_S2000000x4x1x2_0_1_3 : (⟨S2000000x4x2, .f32⟩ : BufTy).Contents (Elt F) → (⟨S2000000x4x1x2, .f32⟩ : BufTy).Contents (Elt F)),
    unary main_v3 main_v5 (broadcastInDim S2000000x4x4x2 ![0, 1, 2, 3] bcast_S2000000x1x4x2_S2000000x4x4x2_0_1_2_3 : (⟨S2000000x1x4x2, .f32⟩ : BufTy).Contents (Elt F) → (⟨S2000000x4x4x2, .f32⟩ : BufTy).Contents (Elt F)),
    unary main_v4 main_v6 (broadcastInDim S2000000x4x4x2 ![0, 1, 2, 3] bcast_S2000000x4x1x2_S2000000x4x4x2_0_1_2_3 : (⟨S2000000x4x1x2, .f32⟩ : BufTy).Contents (Elt F) → (⟨S2000000x4x4x2, .f32⟩ : BufTy).Contents (Elt F)),
    binary main_v5 main_v6 main_v7 (subf : (⟨S2000000x4x4x2, .f32⟩ : BufTy).Contents (Elt F) → (⟨S2000000x4x4x2, .f32⟩ : BufTy).Contents (Elt F) → (⟨S2000000x4x4x2, .f32⟩ : BufTy).Contents (Elt F)),
    unary main_v7 main_v8 (Host.absf : (⟨S2000000x4x4x2, .f32⟩ : BufTy).Contents (Elt F) → (⟨S2000000x4x4x2, .f32⟩ : BufTy).Contents (Elt F)) ]

abbrev opsC : List (HloOp τ sig (Elt F)) :=
  [ nullary main_cst (constant S_ .f32 0x41200000#32),
    unary main_cst main_v9 (broadcastInDim S2000000x4x4x2 ![] bcast_S_S2000000x4x4x2 : (⟨S_, .f32⟩ : BufTy).Contents (Elt F) → (⟨S2000000x4x4x2, .f32⟩ : BufTy).Contents (Elt F)),
    binary main_v8 main_v9 main_v10 (cmpf .olt : (⟨S2000000x4x4x2, .f32⟩ : BufTy).Contents (Elt F) → (⟨S2000000x4x4x2, .f32⟩ : BufTy).Contents (Elt F) → (⟨S2000000x4x4x2, .i1⟩ : BufTy).Contents (Elt F)),
    nullary main_cst_3 (constant S_ .f32 0x40000000#32),
    unary main_cst_3 main_v11 (broadcastInDim S2000000x4x4x2 ![] bcast_S_S2000000x4x4x2 : (⟨S_, .f32⟩ : BufTy).Contents (Elt F) → (⟨S2000000x4x4x2, .f32⟩ : BufTy).Contents (Elt F)),
    binary main_v8 main_v11 main_v12 (Host.divf : (⟨S2000000x4x4x2, .f32⟩ : BufTy).Contents (Elt F) → (⟨S2000000x4x4x2, .f32⟩ : BufTy).Contents (Elt F) → (⟨S2000000x4x4x2, .f32⟩ : BufTy).Contents (Elt F)),
    unary main_v12 main_v13 (Host.log1p : (⟨S2000000x4x4x2, .f32⟩ : BufTy).Contents (Elt F) → (⟨S2000000x4x4x2, .f32⟩ : BufTy).Contents (Elt F)),
    nullary main_cst_4 (constant S_ .f32 0x41200000#32),
    unary main_cst_4 main_v14 (broadcastInDim S2000000x4x4x2 ![] bcast_S_S2000000x4x4x2 : (⟨S_, .f32⟩ : BufTy).Contents (Elt F) → (⟨S2000000x4x4x2, .f32⟩ : BufTy).Contents (Elt F)),
    binary main_v14 main_v13 main_v15 (mulf : (⟨S2000000x4x4x2, .f32⟩ : BufTy).Contents (Elt F) → (⟨S2000000x4x4x2, .f32⟩ : BufTy).Contents (Elt F) → (⟨S2000000x4x4x2, .f32⟩ : BufTy).Contents (Elt F)),
    nullary main_cst_5 (constant S_ .f32 0xC0FD5CF0#32),
    unary main_cst_5 main_v16 (broadcastInDim S2000000x4x4x2 ![] bcast_S_S2000000x4x4x2 : (⟨S_, .f32⟩ : BufTy).Contents (Elt F) → (⟨S2000000x4x4x2, .f32⟩ : BufTy).Contents (Elt F)),
    binary main_v8 main_v16 main_v17 (subf : (⟨S2000000x4x4x2, .f32⟩ : BufTy).Contents (Elt F) → (⟨S2000000x4x4x2, .f32⟩ : BufTy).Contents (Elt F) → (⟨S2000000x4x4x2, .f32⟩ : BufTy).Contents (Elt F)),
    TRef.ternary (.of main_v10 : TRef sig ⟨S2000000x4x4x2, .i1⟩) (.of main_v15 : TRef sig ⟨S2000000x4x4x2, .f32⟩) (.of main_v17 : TRef sig ⟨S2000000x4x4x2, .f32⟩) main_call0.v0 select ]

abbrev opsD : List (HloOp τ sig (Elt F)) :=
  [ nullary main_cst_6 (constant S_ .f32 0x00000000#32),
    binary main_v18 main_cst_6 main_v19 ((fun x v => Host.reduceAdd x v reducesTo_S2000000x4x4x2_S2000000x4x4_d3 h_S_) : (⟨S2000000x4x4x2, .f32⟩ : BufTy).Contents (Elt F) → (⟨S_, .f32⟩ : BufTy).Contents (Elt F) → (⟨S2000000x4x4, .f32⟩ : BufTy).Contents (Elt F)) ]

abbrev opsE : List (HloOp τ sig (Elt F)) :=
  [ nullary main_c_7 (constantI S_ 32 4#32),
    unary main_c_7 main_v20 (broadcastInDim S24x4 ![] bcast_S_S24x4 : (⟨S_, .i32⟩ : BufTy).Contents (Elt F) → (⟨S24x4, .i32⟩ : BufTy).Contents (Elt F)),
    binary main_v0 main_v20 main_v21 (addi : (⟨S24x4, .i32⟩ : BufTy).Contents (Elt F) → (⟨S24x4, .i32⟩ : BufTy).Contents (Elt F) → (⟨S24x4, .i32⟩ : BufTy).Contents (Elt F)),
    ternary main_c_0 main_v21 main_v0 main_v22 (select : (⟨S24x4, .i1⟩ : BufTy).Contents (Elt F) → (⟨S24x4, .i32⟩ : BufTy).Contents (Elt F) → (⟨S24x4, .i32⟩ : BufTy).Contents (Elt F) → (⟨S24x4, .i32⟩ : BufTy).Contents (Elt F)),
    nullary main_c_8 (constantI S_ 32 4#32),
    unary main_c_8 main_v23 (broadcastInDim S24x4 ![] bcast_S_S24x4 : (⟨S_, .i32⟩ : BufTy).Contents (Elt F) → (⟨S24x4, .i32⟩ : BufTy).Contents (Elt F)),
    binary main_c_1 main_v23 main_v24 (addi : (⟨S24x4, .i32⟩ : BufTy).Contents (Elt F) → (⟨S24x4, .i32⟩ : BufTy).Contents (Elt F) → (⟨S24x4, .i32⟩ : BufTy).Contents (Elt F)),
    ternary main_c_2 main_v24 main_c_1 main_v25 (select : (⟨S24x4, .i1⟩ : BufTy).Contents (Elt F) → (⟨S24x4, .i32⟩ : BufTy).Contents (Elt F) → (⟨S24x4, .i32⟩ : BufTy).Contents (Elt F) → (⟨S24x4, .i32⟩ : BufTy).Contents (Elt F)),
    unary main_v22 main_v26 (broadcastInDim S24x4x1 ![0, 1] bcast_S24x4_S24x4x1_0_1 : (⟨S24x4, .i32⟩ : BufTy).Contents (Elt F) → (⟨S24x4x1, .i32⟩ : BufTy).Contents (Elt F)),
    unary main_v25 main_v27 (broadcastInDim S24x4x1 ![0, 1] bcast_S24x4_S24x4x1_0_1 : (⟨S24x4, .i32⟩ : BufTy).Contents (Elt F) → (⟨S24x4x1, .i32⟩ : BufTy).Contents (Elt F)),
    binary main_v26 main_v27 main_v28 ((fun a b => concatenate S24x4x2 2 [⟨S24x4x1, a⟩, ⟨S24x4x1, b⟩] concatenates_S24x4x1_S24x4x1_S24x4x2_d2) : (⟨S24x4x1, .i32⟩ : BufTy).Contents (Elt F) → (⟨S24x4x1, .i32⟩ : BufTy).Contents (Elt F) → (⟨S24x4x2, .i32⟩ : BufTy).Contents (Elt F)) ]

abbrev opsF : List (HloOp τ sig (Elt F)) :=
  [ binary main_v19 main_v28 main_v29 ((fun x i => Host.gather gather_S2000000x4x4_S24x4x2_S2000000x24x4_0_12_n_n_12_2_200000011 x i) : (⟨S2000000x4x4, .f32⟩ : BufTy).Contents (Elt F) → (⟨S24x4x2, .i32⟩ : BufTy).Contents (Elt F) → (⟨S2000000x24x4, .f32⟩ : BufTy).Contents (Elt F)),
    nullary main_cst_9 (constant S_ .f32 0x00000000#32),
    binary main_v29 main_cst_9 main_v30 ((fun x v => Host.reduceAdd x v reducesTo_S2000000x24x4_S2000000x24_d2 h_S_) : (⟨S2000000x24x4, .f32⟩ : BufTy).Contents (Elt F) → (⟨S_, .f32⟩ : BufTy).Contents (Elt F) → (⟨S2000000x24, .f32⟩ : BufTy).Contents (Elt F)),
    nullary main_cst_10 (constant S_ .f32 0x7F800000#32),
    binary main_v30 main_cst_10 main_v31 ((fun x v => Host.reduce FloatOps.minimumf x v reducesTo_S2000000x24_S2000000_d1 h_S_) : (⟨S2000000x24, .f32⟩ : BufTy).Contents (Elt F) → (⟨S_, .f32⟩ : BufTy).Contents (Elt F) → (⟨S2000000, .f32⟩ : BufTy).Contents (Elt F)),
    nullary main_cst_11 (constant S_ .f32 0x3F800000#32),
    unary main_cst_11 main_v32 (broadcastInDim S2000000 ![] bcast_S_S2000000 : (⟨S_, .f32⟩ : BufTy).Contents (Elt F) → (⟨S2000000, .f32⟩ : BufTy).Contents (Elt F)),
    binary main_v31 main_v32 main_v33 (mulf : (⟨S2000000, .f32⟩ : BufTy).Contents (Elt F) → (⟨S2000000, .f32⟩ : BufTy).Contents (Elt F) → (⟨S2000000, .f32⟩ : BufTy).Contents (Elt F)),
    nullary main_cst_12 (constant S_ .f32 0x00000000#32),
    binary main_v33 main_cst_12 main_v34 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
    nullary main_cst_13 (constant S_ .f32 0x49F42400#32),
    binary main_v34 main_cst_13 main_v35 (Host.divf : (⟨S_, .f32⟩ : BufTy).Contents (Elt F) → (⟨S_, .f32⟩ : BufTy).Contents (Elt F) → (⟨S_, .f32⟩ : BufTy).Contents (Elt F)) ]

theorem ops_split : (ops : List (HloOp τ sig (Elt F))) = opsA ++ (opsB ++ (opsC ++ (opsD ++ (opsE ++ opsF)))) := rfl

/-- The fold over two stretches in a row is the fold over the second from the first's outcome. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! What each stretch leaves alone, at the buffers a later stretch reads. -/
theorem keepA_arg0 (W : Valuation τ sig (Elt F)) :
    after opsA W (main_arg0 : DevRef τ sig) = W (main_arg0 : DevRef τ sig) := by after_results_simp
theorem keepA_arg1 (W : Valuation τ sig (Elt F)) :
    after opsA W (main_arg1 : DevRef τ sig) = W (main_arg1 : DevRef τ sig) := by after_results_simp
theorem keepB_v0 (W : Valuation τ sig (Elt F)) :
    after opsB W (main_v0 : DevRef τ sig) = W (main_v0 : DevRef τ sig) := by after_results_simp
theorem keepB_c_0 (W : Valuation τ sig (Elt F)) :
    after opsB W (main_c_0 : DevRef τ sig) = W (main_c_0 : DevRef τ sig) := by after_results_simp
theorem keepB_c_1 (W : Valuation τ sig (Elt F)) :
    after opsB W (main_c_1 : DevRef τ sig) = W (main_c_1 : DevRef τ sig) := by after_results_simp
theorem keepB_c_2 (W : Valuation τ sig (Elt F)) :
    after opsB W (main_c_2 : DevRef τ sig) = W (main_c_2 : DevRef τ sig) := by after_results_simp
theorem keepC_v0 (W : Valuation τ sig (Elt F)) :
    after opsC W (main_v0 : DevRef τ sig) = W (main_v0 : DevRef τ sig) := by after_results_simp
theorem keepC_c_0 (W : Valuation τ sig (Elt F)) :
    after opsC W (main_c_0 : DevRef τ sig) = W (main_c_0 : DevRef τ sig) := by after_results_simp
theorem keepC_c_1 (W : Valuation τ sig (Elt F)) :
    after opsC W (main_c_1 : DevRef τ sig) = W (main_c_1 : DevRef τ sig) := by after_results_simp
theorem keepC_c_2 (W : Valuation τ sig (Elt F)) :
    after opsC W (main_c_2 : DevRef τ sig) = W (main_c_2 : DevRef τ sig) := by after_results_simp
theorem keepD_v0 (W : Valuation τ sig (Elt F)) :
    after opsD W (main_v0 : DevRef τ sig) = W (main_v0 : DevRef τ sig) := by after_results_simp
theorem keepD_c_0 (W : Valuation τ sig (Elt F)) :
    after opsD W (main_c_0 : DevRef τ sig) = W (main_c_0 : DevRef τ sig) := by after_results_simp
theorem keepD_c_1 (W : Valuation τ sig (Elt F)) :
    after opsD W (main_c_1 : DevRef τ sig) = W (main_c_1 : DevRef τ sig) := by after_results_simp
theorem keepD_c_2 (W : Valuation τ sig (Elt F)) :
    after opsD W (main_c_2 : DevRef τ sig) = W (main_c_2 : DevRef τ sig) := by after_results_simp
theorem keepE_v19 (W : Valuation τ sig (Elt F)) :
    after opsE W (main_v19 : DevRef τ sig) = W (main_v19 : DevRef τ sig) := by after_results_simp

/-! What each stretch computes, from any contents `W` before it. -/

theorem A_v0 (W : Valuation τ sig (Elt F)) : after opsA W (main_v0 : DevRef τ sig) = Term.rows := by
  after_results
  rfl
theorem A_c_1 (W : Valuation τ sig (Elt F)) : after opsA W (main_c_1 : DevRef τ sig) = Term.perms := by
  after_results
  rfl
theorem A_c_0 (W : Valuation τ sig (Elt F)) : after opsA W (main_c_0 : DevRef τ sig) = constantI S24x4 1 0#1 := by
  after_results
theorem A_c_2 (W : Valuation τ sig (Elt F)) : after opsA W (main_c_2 : DevRef τ sig) = constantI S24x4 1 0#1 := by
  after_results

theorem B_v8 (W : Valuation τ sig (Elt F)) :
    after opsB W (main_v8 : DevRef τ sig) = Term.dists (W (main_arg0 : DevRef τ sig)) (W (main_arg1 : DevRef τ sig)) := by
  after_results
  rfl

theorem C_v18 (W : Valuation τ sig (Elt F)) :
    after opsC W (main_v18 : DevRef τ sig) = Term.wings (W (main_v8 : DevRef τ sig)) := by
  after_results
  rfl

theorem D_v19 (W : Valuation τ sig (Elt F)) :
    after opsD W (main_v19 : DevRef τ sig) = Term.costs (W (main_v18 : DevRef τ sig)) := by
  after_results
  rfl

theorem E_v28 (W : Valuation τ sig (Elt F)) :
    after opsE W (main_v28 : DevRef τ sig)
      = concatenate S24x4x2 2
          [⟨S24x4x1, broadcastInDim S24x4x1 ![0, 1] bcast_S24x4_S24x4x1_0_1
              (select (W (main_c_0 : DevRef τ sig))
                (addi (W (main_v0 : DevRef τ sig)) (broadcastInDim S24x4 ![] bcast_S_S24x4 (constantI S_ 32 4#32)))
                (W (main_v0 : DevRef τ sig)))⟩,
           ⟨S24x4x1, broadcastInDim S24x4x1 ![0, 1] bcast_S24x4_S24x4x1_0_1
              (select (W (main_c_2 : DevRef τ sig))
                (addi (W (main_c_1 : DevRef τ sig)) (broadcastInDim S24x4 ![] bcast_S_S24x4 (constantI S_ 32 4#32)))
                (W (main_c_1 : DevRef τ sig)))⟩]
          concatenates_S24x4x1_S24x4x1_S24x4x2_d2 := by
  after_results

theorem F_v35 (W : Valuation τ sig (Elt F)) :
    after opsF W (main_v35 : DevRef τ sig)
      = Term.meanOf (Term.least (Term.totals
          (Host.gather gather_S2000000x4x4_S24x4x2_S2000000x24x4_0_12_n_n_12_2_200000011
            (W (main_v19 : DevRef τ sig)) (W (main_v28 : DevRef τ sig))))) := by
  after_results
  rfl

/-- The whole line at the last buffer: the staged function of the two arguments. -/
theorem out_eq (V : Valuation τ sig (Elt F)) :
    after ops V (main_v35 : DevRef τ sig)
      = Term.result (V (main_arg0 : DevRef τ sig)) (V (main_arg1 : DevRef τ sig)) := by
  rw [ops_split, after_app, after_app, after_app, after_app, after_app]
  rw [F_v35, E_v28, keepE_v19, D_v19, C_v18, B_v8, keepA_arg0, keepA_arg1,
    keepD_v0, keepC_v0, keepB_v0, A_v0, keepD_c_0, keepC_c_0, keepB_c_0, A_c_0,
    keepD_c_1, keepC_c_1, keepB_c_1, A_c_1, keepD_c_2, keepC_c_2, keepB_c_2, A_c_2]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- On the device, for any float values, from any memory with zero counters: every weakly fair execution of the
    program terminates with the last buffer at the staged function of the two argument arrays as they stood at
    launch, and with both argument arrays as they stood. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = Term.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v35).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.HandRun

end
-- ==== Proof.RefValue.lean ====
/-
  The value of the reference's result: read entry by entry, stage by stage, it is the mean over the batch of each
  sample's least assignment total in its fold spelling.
-/
import proofs.«139330_j25202868093039_1_alg».proof.Proof.RefTerm
import proofs.«139330_j25202868093039_1_alg».proof.Proof.MatchingSpec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.ValueIdx
open Cert.Matching (wing dist entry assign lossFold sample)

/-- Entry (n, j, d) of the corner view is entry (n, 2 j + d) of the flat array. -/
theorem corners_apply (x : FVec Ideal S2000000x8 .f32) (n : Fin 2000000) (j : Fin 4) (d : Fin 2) :
    Term.corners x (ix3 n j d) = x (ix2 n (entry j d)) := by
  unfold Term.corners
  refine shapeCast_apply x _ (ix3 n j d) (ix2 n (entry j d)) ?_
  rw [Shape.rowMajor_val_two, Shape.rowMajor_val_three]
  show n.val * 8 + (2 * j.val + d.val) = (n.val * 4 + j.val) * 2 + d.val
  omega

/-- The predicted corners spread along the target axis: entry (n, i, j, d) is corner j's coordinate d. -/
theorem spreadPred_apply (u : FVec Ideal S2000000x4x2 .f32) (n : Fin 2000000) (i j : Fin 4) (d : Fin 2) :
    Term.spreadPred u (ix4 n i j d) = u (ix3 n j d) := by
  unfold Term.spreadPred
  refine (broadcastInDim_apply _ _ _ (ix4 n i j d) (ix4 n (0 : Fin 1) j d) fun a => ?_).trans ?_
  · match a with
    | ⟨0, _⟩ => rfl
    | ⟨1, _⟩ => rfl
    | ⟨2, _⟩ => rfl
    | ⟨3, _⟩ => rfl
  · refine broadcastInDim_apply _ _ _ (ix4 n (0 : Fin 1) j d) (ix3 n j d) fun a => ?_
    match a with
    | ⟨0, _⟩ => rfl
    | ⟨1, _⟩ => rfl
    | ⟨2, _⟩ => rfl

/-- The target corners spread along the predicted axis: entry (n, i, j, d) is corner i's coordinate d. -/
theorem spreadTgt_apply (u : FVec Ideal S2000000x4x2 .f32) (n : Fin 2000000) (i j : Fin 4) (d : Fin 2) :
    Term.spreadTgt u (ix4 n i j d) = u (ix3 n i d) := by
  unfold Term.spreadTgt
  refine (broadcastInDim_apply _ _ _ (ix4 n i j d) (ix4 n i (0 : Fin 1) d) fun a => ?_).trans ?_
  · match a with
    | ⟨0, _⟩ => rfl
    | ⟨1, _⟩ => rfl
    | ⟨2, _⟩ => rfl
    | ⟨3, _⟩ => rfl
  · refine broadcastInDim_apply _ _ _ (ix4 n i (0 : Fin 1) d) (ix3 n i d) fun a => ?_
    match a with
    | ⟨0, _⟩ => rfl
    | ⟨1, _⟩ => rfl
    | ⟨2, _⟩ => rfl

/-- The coordinate distances at an entry: predicted corner j against target corner i at coordinate d. -/
theorem dists_apply (x y : FVec Ideal S2000000x8 .f32) (n : Fin 2000000) (i j : Fin 4) (d : Fin 2) :
    Term.dists x y (ix4 n i j d) = dist (x (ix2 n (entry j d))) (y (ix2 n (entry i d))) := by
  show dist (Term.spreadPred (Term.corners x) (ix4 n i j d)) (Term.spreadTgt (Term.corners y) (ix4 n i j d)) = _
  rw [spreadPred_apply, spreadTgt_apply, corners_apply, corners_apply]

/-- A repeated scalar word reads the extended real it encodes everywhere. -/
theorem fill_apply (w : BitVec 32) (k : S2000000x4x4x2.Idx) :
    Term.fill (F := Ideal) w k = Ideal.ofBits .f32 w := rfl

/-- The wing loss entry by entry. -/
theorem wings_apply (v : FVec Ideal S2000000x4x4x2 .f32) (k : S2000000x4x4x2.Idx) :
    Term.wings v k = wing (v k) := rfl

/-- Summing the coordinate axis away leaves the [2000000, 4, 4] array of costs. -/
theorem reduces_d3 : S2000000x4x4x2.Reduces [3] S2000000x4x4 := by decide

/-- The cost of a pair of corners: zero plus the two coordinates' wing losses. -/
theorem costs_apply (w : FVec Ideal S2000000x4x4x2 .f32) (n : Fin 2000000) (i j : Fin 4) :
    Term.costs w (ix3 n i j) = Ideal.ofBits .f32 0x00000000#32 + ∑ d : Fin 2, w (ix4 n i j d) := by
  unfold Term.costs
  refine (Ideal.hostReduceAdd_single reducesTo_S2000000x4x4x2_S2000000x4x4_d3 reduces_d3 w _ (ix3 n i j)).trans ?_
  refine congrArg (fun s => Ideal.ofBits .f32 0x00000000#32 + s) ?_
  refine Finset.sum_congr rfl fun d _ => congrArg w ?_
  funext c
  apply Fin.ext
  match c with
  | ⟨0, _⟩ => rfl
  | ⟨1, _⟩ => rfl
  | ⟨2, _⟩ => rfl
  | ⟨3, _⟩ => rfl

/-- The target-corner table holds the corner's number in every row. -/
theorem rows_apply (q : Fin 24) (i : Fin 4) : Term.rows (ix2 q i) = BitVec.ofNat 32 i.val := by
  unfold Term.rows
  refine (broadcastInDim_apply _ _ _ (ix2 q i) (ix1 i) fun a => ?_).trans ?_
  · match a with
    | ⟨0, _⟩ => rfl
  · have h : S4.rowMajor (ix1 i) = i := Fin.ext (Shape.rowMajor_val_one _)
    show lit0 (S4.rowMajor (ix1 i)) = _
    rw [h]
    fin_cases i <;> rfl

/-- The assignment table holds, in row q, the predicted corner assignment q gives each target corner. -/
theorem perms_apply (q : Fin 24) (i : Fin 4) : Term.perms (ix2 q i) = BitVec.ofNat 32 (assign q i).val := by
  have h : S24x4.rowMajor (ix2 q i) = (⟨q.val * 4 + i.val, by omega⟩ : Fin 96) := Fin.ext (Shape.rowMajor_val_two _)
  show lit1 (S24x4.rowMajor (ix2 q i)) = _
  rw [h]
  fin_cases q <;> fin_cases i <;> rfl

/-- No entry is wrapped: the mask is constantly false. -/
theorem wrapped_apply (a : IVec S24x4 32) (k : S24x4.Idx) : Term.wrapped a k = a k := by
  unfold Term.wrapped
  exact select_zero _ _

/-- A [24, 4] index array read through its [24, 4, 1] view. -/
theorem unitView_apply (a : IVec S24x4 32) (q : Fin 24) (i : Fin 4) :
    broadcastInDim S24x4x1 ![0, 1] bcast_S24x4_S24x4x1_0_1 a (ix3 q i (0 : Fin 1)) = a (ix2 q i) := by
  refine broadcastInDim_apply _ _ _ (ix3 q i (0 : Fin 1)) (ix2 q i) fun b => ?_
  match b with
  | ⟨0, _⟩ => rfl
  | ⟨1, _⟩ => rfl

/-- The first component of pair (q, i) of the table is the target corner i. -/
theorem table_apply_zero (q : Fin 24) (i : Fin 4) : Term.table (ix3 q i (0 : Fin 2)) = BitVec.ofNat 32 i.val := by
  unfold Term.table
  refine (concatenate_pair_apply_left (t := S24x4x2) (s₁ := S24x4x1) (s₂ := S24x4x1) (2 : Fin S24x4x2.rank) _ _ _
    (ix3 q i (0 : Fin 2)) rfl (ix3 q i (0 : Fin 1)) fun b => ?_).trans ?_
  · match b with
    | ⟨0, _⟩ => rfl
    | ⟨1, _⟩ => rfl
    | ⟨2, _⟩ => rfl
  · rw [unitView_apply, wrapped_apply, rows_apply]

/-- The second component of pair (q, i) of the table is the predicted corner assignment q gives target corner i. -/
theorem table_apply_one (q : Fin 24) (i : Fin 4) :
    Term.table (ix3 q i (1 : Fin 2)) = BitVec.ofNat 32 (assign q i).val := by
  unfold Term.table
  refine (concatenate_pair_apply_right (t := S24x4x2) (s₁ := S24x4x1) (s₂ := S24x4x1) (2 : Fin S24x4x2.rank) _ _ _
    (ix3 q i (1 : Fin 2)) rfl rfl (ix3 q i (0 : Fin 1)) (fun b hb => ?_) rfl).trans ?_
  · match b, hb with
    | ⟨0, _⟩, _ => rfl
    | ⟨1, _⟩, _ => rfl
    | ⟨2, _⟩, hb => exact absurd rfl hb
  · rw [unitView_apply, wrapped_apply, perms_apply]

/-- The gather's dimension numbers. -/
abbrev GD : GatherDims S2000000x4x4 S24x4x2 S2000000x24x4 :=
  gather_S2000000x4x4_S24x4x2_S2000000x24x4_0_12_n_n_12_2_200000011

/-- A corner's number read as a signed word and clamped into [0, 3] is the corner's number. -/
theorem clamp_corner (m : Fin 4) : min (BitVec.ofNat 32 m.val).toInt.toNat (4 - 1) = m.val := by
  fin_cases m <;> rfl

/-- Result entry (n, q, i) of the gather reads its first start component at pair (q, i), component 0, of the
    table. -/
theorem siIdx_zero (n : Fin 2000000) (q : Fin 24) (i : Fin 4)
    (h : List.idxOf (1 : Fin 3) GD.startIndexMap < GD.startIndexMap.length) :
    GD.siIdx (ix3 n q i) ⟨List.idxOf (1 : Fin 3) GD.startIndexMap, h⟩ = ix3 q i (0 : Fin 2) := by
  funext b; refine Fin.ext ?_
  match b with
  | ⟨0, _⟩ => rfl
  | ⟨1, _⟩ => rfl
  | ⟨2, _⟩ => rfl

/-- The same for the second start component. -/
theorem siIdx_one (n : Fin 2000000) (q : Fin 24) (i : Fin 4)
    (h : List.idxOf (2 : Fin 3) GD.startIndexMap < GD.startIndexMap.length) :
    GD.siIdx (ix3 n q i) ⟨List.idxOf (2 : Fin 3) GD.startIndexMap, h⟩ = ix3 q i (1 : Fin 2) := by
  funext b; refine Fin.ext ?_
  match b with
  | ⟨0, _⟩ => rfl
  | ⟨1, _⟩ => rfl
  | ⟨2, _⟩ => rfl

/-- Each assignment's gathered cost: entry (n, q, i) is the cost of target corner i against its assigned predicted
    corner. -/
theorem gathered_apply (c : FVec Ideal S2000000x4x4 .f32) (n : Fin 2000000) (q : Fin 24) (i : Fin 4) :
    Term.gathered c (ix3 n q i) = c (ix3 n i (assign q i)) := by
  unfold Term.gathered Host.gather
  refine congrArg c (funext fun a => Fin.ext ?_)
  match a with
  | ⟨0, _⟩ =>
    show GD.start (ix3 n q i) Term.table 0 + GD.batchCoord (ix3 n q i) 0 + GD.offCoord (ix3 n q i) 0 = n.val
    have h0 : GD.start (ix3 n q i) Term.table 0 = 0 := by
      unfold GatherDims.start
      exact dif_neg (by decide)
    have h2 : GD.offCoord (ix3 n q i) 0 = n.val := by
      unfold GatherDims.offCoord
      rw [dif_pos (by decide)]
      rfl
    rw [GD.batchCoord_eq_zero _ _ List.not_mem_nil, h0, h2, Nat.zero_add]
  | ⟨1, _⟩ =>
    show GD.start (ix3 n q i) Term.table 1 + GD.batchCoord (ix3 n q i) 1 + GD.offCoord (ix3 n q i) 1 = i.val
    rw [GD.batchCoord_eq_zero _ _ List.not_mem_nil, GD.offCoord_eq_zero _ _ (by decide)]
    unfold GatherDims.start
    rw [dif_pos (by decide), siIdx_zero, table_apply_zero]
    exact clamp_corner i
  | ⟨2, _⟩ =>
    show GD.start (ix3 n q i) Term.table 2 + GD.batchCoord (ix3 n q i) 2 + GD.offCoord (ix3 n q i) 2 = (assign q i).val
    rw [GD.batchCoord_eq_zero _ _ List.not_mem_nil, GD.offCoord_eq_zero _ _ (by decide)]
    unfold GatherDims.start
    rw [dif_pos (by decide), siIdx_one, table_apply_one]
    exact clamp_corner (assign q i)

/-- Summing the corner axis away leaves the [2000000, 24] array of totals. -/
theorem reduces_d2 : S2000000x24x4.Reduces [2] S2000000x24 := by decide
/-- Taking the least over the assignment axis leaves one value per sample. -/
theorem reduces_d1 : S2000000x24.Reduces [1] S2000000 := by decide

/-- An assignment's total: zero plus its four gathered costs. -/
theorem totals_apply (g : FVec Ideal S2000000x24x4 .f32) (n : Fin 2000000) (q : Fin 24) :
    Term.totals g (ix2 n q) = Ideal.ofBits .f32 0x00000000#32 + ∑ i : Fin 4, g (ix3 n q i) := by
  unfold Term.totals
  refine (Ideal.hostReduceAdd_single reducesTo_S2000000x24x4_S2000000x24_d2 reduces_d2 g _ (ix2 n q)).trans ?_
  refine congrArg (fun s => Ideal.ofBits .f32 0x00000000#32 + s) ?_
  refine Finset.sum_congr rfl fun i _ => congrArg g ?_
  funext c
  apply Fin.ext
  match c with
  | ⟨0, _⟩ => rfl
  | ⟨1, _⟩ => rfl
  | ⟨2, _⟩ => rfl

/-- The least total of a sample: the fold of the minimum from +∞ over the 24 assignments. -/
theorem least_apply (t : FVec Ideal S2000000x24 .f32) (n : Fin 2000000) :
    Term.least t (ix1 n)
      = (Finset.univ : Finset (Fin 24)).fold min (Ideal.ofBits .f32 0x7F800000#32) fun q => t (ix2 n q) := by
  unfold Term.least
  refine (Host.reduce_eq_fold_single FloatOps.minimumf t _ reducesTo_S2000000x24_S2000000_d1 reduces_d1 h_S_
    (ix1 n)).trans ?_
  refine congrArg (fun f => (Finset.univ : Finset (Fin 24)).fold min (Ideal.ofBits .f32 0x7F800000#32) f) ?_
  funext q
  refine congrArg t ?_
  funext c
  apply Fin.ext
  match c with
  | ⟨0, _⟩ => rfl
  | ⟨1, _⟩ => rfl

/-- The two spellings of the batch mean are the same operations over the same shapes. -/
theorem meanOf_eq_mean (v : FVec Ideal S2000000 .f32) : Term.meanOf v = Cert.Matching.mean v := rfl

/-- Sample n's least total, read through every stage, is the fold spelling of the sample's loss. -/
theorem least_eq (x y : FVec Ideal S2000000x8 .f32) (n : Fin 2000000) :
    Term.least (Term.totals (Term.gathered (Term.costs (Term.wings (Term.dists x y))))) (ix1 n)
      = lossFold (sample x n) (sample y n) := by
  rw [least_apply]
  unfold lossFold
  refine congrArg (fun f => (Finset.univ : Finset (Fin 24)).fold min (Ideal.ofBits .f32 0x7F800000#32) f) ?_
  funext q
  rw [totals_apply]
  refine congrArg (fun s => Ideal.ofBits .f32 0x00000000#32 + s) ?_
  refine Finset.sum_congr rfl fun i _ => ?_
  rw [gathered_apply, costs_apply]
  refine congrArg (fun s => Ideal.ofBits .f32 0x00000000#32 + s) ?_
  refine Finset.sum_congr rfl fun d _ => ?_
  rw [wings_apply, dists_apply]
  rfl

/-- THE VALUE of the reference's result: the mean over the batch of each sample's least assignment total. -/
theorem result_eq (x y : FVec Ideal S2000000x8 .f32) :
    Term.result (F := Ideal) x y = Cert.Matching.batchLossFold x y := by
  unfold Term.result Cert.Matching.batchLossFold
  rw [meanOf_eq_mean]
  refine congrArg Cert.Matching.mean (funext fun i => ?_)
  obtain ⟨n, rfl⟩ : ∃ n : Fin 2000000, i = ix1 n := ⟨i 0, eq_ix1 i⟩
  exact least_eq x y n

end Cert.ReferenceIdeal.RefValue

end
-- ==== Proof.lean ====
/-
  The certificate of the quadrilateral matching loss: a kernel that takes, for each of two million samples, the
  least total wing-loss cost over the 24 assignments of four predicted corners to four target corners, and the mean
  of those losses over the batch, against the array program that computes the same by broadcasting, gathering
  through a table of the 24 permutations, and reducing.

  Both programs end, at the extended reals, with the mean over the batch of each sample's least assignment total.
  The kernel reaches it lane by lane: every operation of its body acts on one sample's sixteen entries, its
  totals are added corner by corner and its minimum is a running one (KernelLane); its sixteen input arrays are the
  columns of the two arguments and its blocks tile the row of losses (KernelArrays, KernelBlocks); the operations
  after the region take the mean (KernelRun). The array program reaches it as a fold of `min` from +∞ over sums from
  zero (RefRun for its run, RefValue for its value index by index). The two spellings agree because sums from zero
  drop the zero and a fold of `min` from +∞ over the 24 assignments is their running minimum (MatchingLaws). No law
  used needs the inputs finite: only that + and min are associative and commutative, which holds on all of the
  extended reals. The idealization rewrote nothing, so `preserves` is trivial; the two kernel programs' frames are the
  generated ones, the reference's frame is its run with the result dropped.
-/
import proofs.«139330_j25202868093039_1_alg».proof.Defs
import proofs.«139330_j25202868093039_1_alg».proof.Proof.Gen.Kernel
import proofs.«139330_j25202868093039_1_alg».proof.Proof.Gen.Kernel.Frame
import proofs.«139330_j25202868093039_1_alg».proof.Proof.Gen.KernelIdeal
import proofs.«139330_j25202868093039_1_alg».proof.Proof.Gen.KernelIdeal.Frame
import proofs.«139330_j25202868093039_1_alg».proof.Proof.Gen.ReferenceIdeal
import proofs.«139330_j25202868093039_1_alg».proof.Proof.Gen.Pre_finite_inputs
import proofs.«139330_j25202868093039_1_alg».proof.Proof.MatchingLaws
import proofs.«139330_j25202868093039_1_alg».proof.Proof.KernelRun
import proofs.«139330_j25202868093039_1_alg».proof.Proof.RefRun
import proofs.«139330_j25202868093039_1_alg».proof.Proof.RefValue
import Idealize.ShloMosaic.Adequacy
import Idealize.ShloMosaic.Init

noncomputable section

open Idealize.ShloMosaic Idealize.ShloMosaic.TcCoe Idealize.SL.Sem

namespace Cert.Proof.Claims

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the statement about the result dropped. -/
theorem frame_reference : Cert.frame_ReferenceIdeal := fun m ρ _ =>
  (θ_run Cert.ReferenceIdeal.defs _ _).mono (fun _ h c => (h c).2) (Cert.ReferenceIdeal.HandRun.run (F := Ideal) m ρ)

/-- From memories that agree on the two arguments both programs end at the batch's loss of those arguments: the
    kernel program at its running-minimum spelling, the reference at its fold spelling, which is the same number. -/
theorem algebraic : Cert.algebraic_KernelIdeal_ReferenceIdeal := by
  intro m ρ m' ρ' _ hagree
  refine ⟨fun c => Cert.Matching.batchLoss (Cert.KernelIdeal.Blocks.predArr m c) (Cert.KernelIdeal.Blocks.tgtArr m c),
    Cert.KernelIdeal.Run.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2, Cert.ReferenceIdeal.RefValue.result_eq, Cert.Matching.batchLossFold_eq]

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_reference, trivial, Claims.algebraic⟩

end Cert.Proof

end
